-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S16384x4096 : Shape := ⟨2, ![16384, 4096]⟩
abbrev S16384 : Shape := ⟨1, ![16384]⟩
abbrev S4x4096 : Shape := ⟨2, ![4, 4096]⟩
abbrev S4 : Shape := ⟨1, ![4]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S16384x4096 : S_.BroadcastsInDim S16384x4096 (![] : Fin 0 → Fin S16384x4096.rank)
  reducesTo_S16384x4096_S_d0_1 : S16384x4096.ReducesTo [0, 1] S_
  bcast_S_S16384 : S_.BroadcastsInDim S16384 (![] : Fin 0 → Fin S16384.rank)
  reducesTo_S16384_S_d0 : S16384.ReducesTo [0] S_
  bcast_S_S4x4096 : S_.BroadcastsInDim S4x4096 (![] : Fin 0 → Fin S4x4096.rank)
  reducesTo_S4x4096_S_d0_1 : S4x4096.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_arg4 : FVec F S4 .f32) (main_arg5 : FVec F S4 .f32) (main_v13 : IVec S_ 1) (main_v16 : IVec S4x4096 1) : IVec S_ 1 :=
  let main_c_5 : IVec S_ 1 := constantI S_ 1 1#1
  let main_v17 : IVec S_ 1 := (fun x v => Host.reduce IntOp.andi x v reducesTo_S4x4096_S_d0_1 h_S_) main_v16 main_c_5
  let main_v18 : IVec S_ 1 := andi main_v13 main_v17
  let main_v19 : FVec F S4 .f32 := Host.absf main_arg4
  let main_cst_6 : FVec F S_ .f32 := constant S_ .f32 0x7F800000#32
  let main_v20 : FVec F S4 .f32 := broadcastInDim S4 ![] bcast_S_S4 main_cst_6
  let main_v21 : IVec S4 1 := cmpf .olt main_v19 main_v20
  let main_c_7 : IVec S_ 1 := constantI S_ 1 1#1
  let main_v22 : IVec S_ 1 := (fun x v => Host.reduce IntOp.andi x v reducesTo_S4_S_d0 h_S_) main_v21 main_c_7
  let main_v23 : IVec S_ 1 := andi main_v18 main_v22
  let main_v24 : FVec F S4 .f32 := Host.absf main_arg5
  let main_cst_8 : FVec F S_ .f32 := constant S_ .f32 0x7F800000#32
  let main_v25 : FVec F S4 .f32 := broadcastInDim S4 ![] bcast_S_S4 main_cst_8
  let main_v26 : IVec S4 1 := cmpf .olt main_v24 main_v25
  let main_c_9 : IVec S_ 1 := constantI S_ 1 1#1
  let main_v27 : IVec S_ 1 := (fun x v => Host.reduce IntOp.andi x v reducesTo_S4_S_d0 h_S_) main_v26 main_c_9
  let main_v28 : IVec S_ 1 := andi main_v23 main_v27
  main_v28

def fn {F : FTy → Type} [FloatOps F] (main_arg0 : FVec F S8192x4096 .f32) (main_arg1 : FVec F S16384x4096 .f32) (main_arg2 : FVec F S16384 .f32) (main_arg3 : FVec F S4x4096 .f32) (main_arg4 : FVec F S4 .f32) (main_arg5 : FVec F S4 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  let main_v14 : FVec F S4x4096 .f32 := Host.absf main_arg3
  let main_cst_4 : FVec F S_ .f32 := constant S_ .f32 0x7F800000#32
  let main_v15 : FVec F S4x4096 .f32 := broadcastInDim S4x4096 ![] bcast_S_S4x4096 main_cst_4
  let main_v16 : IVec S4x4096 1 := cmpf .olt main_v14 main_v15
  fn_part1 (F := F) main_arg4 main_arg5 main_v13 main_v16
-- ==== Kernel.lean ====
abbrev S8192x4096 : Shape := ⟨2, ![8192, 4096]⟩
abbrev S16384x4096 : Shape := ⟨2, ![16384, 4096]⟩
abbrev S16384 : Shape := ⟨1, ![16384]⟩
abbrev S4x4096 : Shape := ⟨2, ![4, 4096]⟩
abbrev S4 : Shape := ⟨1, ![4]⟩
abbrev S4x1x1 : Shape := ⟨3, ![4, 1, 1]⟩
abbrev S4x1x4096 : Shape := ⟨3, ![4, 1, 4096]⟩
abbrev S256x4096 : Shape := ⟨2, ![256, 4096]⟩
abbrev S1x1x4096 : Shape := ⟨3, ![1, 1, 4096]⟩
abbrev S1x1x1 : Shape := ⟨3, ![1, 1, 1]⟩
abbrev S1x4096 : Shape := ⟨2, ![1, 4096]⟩
abbrev S1x1 : Shape := ⟨2, ![1, 1]⟩
abbrev S4x8192x4096 : Shape := ⟨3, ![4, 8192, 4096]⟩
abbrev S1x256x4096 : Shape := ⟨3, ![1, 256, 4096]⟩
abbrev S1x16384 : Shape := ⟨2, ![1, 16384]⟩
abbrev S8192x16384 : Shape := ⟨2, ![8192, 16384]⟩
abbrev S1x2048x512 : Shape := ⟨3, ![1, 2048, 512]⟩
abbrev S512x512 : Shape := ⟨2, ![512, 512]⟩
abbrev S1x512 : Shape := ⟨2, ![1, 512]⟩
abbrev S2048x512 : Shape := ⟨2, ![2048, 512]⟩

abbrev nBuf : Space → Nat
  | .hbm => 16
  | .vmem => 26
  | .smem => 0
  | _ => 0

abbrev bufTy : (tb : Table) → Fin (tcTables nBuf tb) → BufTy
  | .hbm, ⟨0, _⟩ => ⟨S8192x4096, .f32⟩
  | .hbm, ⟨1, _⟩ => ⟨S16384x4096, .f32⟩
  | .hbm, ⟨2, _⟩ => ⟨S16384, .f32⟩
  | .hbm, ⟨3, _⟩ => ⟨S4x4096, .f32⟩
  | .hbm, ⟨4, _⟩ => ⟨S4, .f32⟩
  | .hbm, ⟨5, _⟩ => ⟨S4, .f32⟩
  | .hbm, ⟨6, _⟩ => ⟨S4, .f32⟩
  | .hbm, ⟨7, _⟩ => ⟨S4x1x1, .f32⟩
  | .hbm, ⟨8, _⟩ => ⟨S4x1x4096, .f32⟩
  | .hbm, ⟨9, _⟩ => ⟨S4x1x1, .f32⟩
  | .hbm, ⟨10, _⟩ => ⟨S16384x4096, .bf16⟩
  | .hbm, ⟨11, _⟩ => ⟨S4x1x4096, .f32⟩
  | .hbm, ⟨12, _⟩ => ⟨S4x1x1, .f32⟩
  | .hbm, ⟨13, _⟩ => ⟨S4x8192x4096, .bf16⟩
  | .hbm, ⟨14, _⟩ => ⟨S1x16384, .f32⟩
  | .hbm, ⟨15, _⟩ => ⟨S8192x16384, .f32⟩
  | .local _ .vmem, ⟨0, _⟩ => ⟨S256x4096, .f32⟩
  | .local _ .vmem, ⟨1, _⟩ => ⟨S256x4096, .f32⟩
  | .local _ .vmem, ⟨2, _⟩ => ⟨S1x1x4096, .f32⟩
  | .local _ .vmem, ⟨3, _⟩ => ⟨S1x1x4096, .f32⟩
  | .local _ .vmem, ⟨4, _⟩ => ⟨S1x1x1, .f32⟩
  | .local _ .vmem, ⟨5, _⟩ => ⟨S1x1x1, .f32⟩
  | .local _ .vmem, ⟨6, _⟩ => ⟨S256x4096, .bf16⟩
  | .local _ .vmem, ⟨7, _⟩ => ⟨S256x4096, .bf16⟩
  | .local _ .vmem, ⟨8, _⟩ => ⟨S256x4096, .f32⟩
  | .local _ .vmem, ⟨9, _⟩ => ⟨S256x4096, .f32⟩
  | .local _ .vmem, ⟨10, _⟩ => ⟨S1x1x4096, .f32⟩
  | .local _ .vmem, ⟨11, _⟩ => ⟨S1x1x4096, .f32⟩
  | .local _ .vmem, ⟨12, _⟩ => ⟨S1x1x1, .f32⟩
  | .local _ .vmem, ⟨13, _⟩ => ⟨S1x1x1, .f32⟩
  | .local _ .vmem, ⟨14, _⟩ => ⟨S1x256x4096, .bf16⟩
  | .local _ .vmem, ⟨15, _⟩ => ⟨S1x256x4096, .bf16⟩
  | .local _ .vmem, ⟨16, _⟩ => ⟨S1x2048x512, .bf16⟩
  | .local _ .vmem, ⟨17, _⟩ => ⟨S1x2048x512, .bf16⟩
  | .local _ .vmem, ⟨18, _⟩ => ⟨S512x512, .bf16⟩
  | .local _ .vmem, ⟨19, _⟩ => ⟨S512x512, .bf16⟩
  | .local _ .vmem, ⟨20, _⟩ => ⟨S1x1x1, .f32⟩
  | .local _ .vmem, ⟨21, _⟩ => ⟨S1x1x1, .f32⟩
  | .local _ .vmem, ⟨22, _⟩ => ⟨S1x512, .f32⟩
  | .local _ .vmem, ⟨23, _⟩ => ⟨S1x512, .f32⟩
  | .local _ .vmem, ⟨24, _⟩ => ⟨S2048x512, .f32⟩
  | .local _ .vmem, ⟨25, _⟩ => ⟨S2048x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_stg4_0 : Ref sig .tc := ⟨.vmem, 24, rfl⟩
abbrev cc2_stg4_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem4_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![32, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x256x4096 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨3, ![4, 32, 8], ![false, false, false]⟩

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  ![v16.toNat, arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.divsi arg1 c8_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg1 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1x2048x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, true]

abbrev stage2_1 : Fin 2 → Memref sig .tc .vmem S512x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x1x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, false]

abbrev stage2_3 : Fin 2 → Memref sig .tc .vmem S1x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true, false]

abbrev stage2_4 : Fin 2 → Memref sig .tc .vmem S2048x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, false]

class Facts₀ : Prop where
  shapeCasts_S4_S4x1x1 : S4.ShapeCasts S4x1x1
  shapeCasts_S4x4096_S4x1x4096 : S4x4096.ShapeCasts S4x1x4096
  inb_S256x4096_S256x4096_0_0 : ∀ a, (![0, 0] : Fin 2 → Nat) a + S256x4096.size a ≤ S256x4096.size a
  h_S256x4096 : 0 < S256x4096.numel
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  broadcasts_S1x4096_S256x4096 : S1x4096.Broadcasts S256x4096
  broadcasts_S1x1_S256x4096 : S1x1.Broadcasts S256x4096
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  shapeCasts_S256x4096_S1x256x4096 : S256x4096.ShapeCasts S1x256x4096
  packedbf16_S1x256x4096_S1x256x4096_0_0_0 : (Rect.unit (s := S1x256x4096) ![0, 0, 0] S1x256x4096.size inb_S1x256x4096_S1x256x4096_0_0_0).PackedRows (EltTy.packing .bf16)
  shapeCasts_S16384_S1x16384 : S16384.ShapeCasts S1x16384
  inb_S2048x512_S2048x512_0_0 : ∀ a, (![0, 0] : Fin 2 → Nat) a + S2048x512.size a ≤ S2048x512.size a
  h_S2048x512 : 0 < S2048x512.numel
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S2048x512_S2048x512 : S2048x512.ShapeCasts S2048x512
  broadcasts_S1x1_S2048x512 : S1x1.Broadcasts S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  dot_S2048x512_S512x512_S2048x512_1_1_0_0_n_n_wf : DotDims.WF S2048x512 S512x512 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x4096.size a ≤ S4x1x4096.size a
  hwx0_1 : ∀ i : grid0.Coords, EltTy.bits .f32 = 32 ∨ (Rect.block (s := S4x1x4096) S1x1x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S4x1x1.size a
  hwx0_2 : ∀ i : grid0.Coords, EltTy.bits .f32 = 32 ∨ (Rect.block (s := S4x1x1) S1x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S16384x4096.size a
  hwx0_3 : ∀ i : grid0.Coords, EltTy.bits .bf16 = 32 ∨ (Rect.block (s := S16384x4096) S256x4096.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S8192x4096.size a
  hwx1_0 : ∀ i : grid1.Coords, EltTy.bits .f32 = 32 ∨ (Rect.block (s := S8192x4096) S256x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x4096.size a ≤ S4x1x4096.size a
  hwx1_1 : ∀ i : grid1.Coords, EltTy.bits .f32 = 32 ∨ (Rect.block (s := S4x1x4096) S1x1x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x1.size a ≤ S4x1x1.size a
  hwx1_2 : ∀ i : grid1.Coords, EltTy.bits .f32 = 32 ∨ (Rect.block (s := S4x1x1) S1x1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x4096.size a ≤ S4x8192x4096.size a
  hwx1_3 : ∀ i : grid1.Coords, EltTy.bits .bf16 = 32 ∨ (Rect.block (s := S4x8192x4096) S1x256x4096.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x2048x512.size a ≤ S4x8192x4096.size a
  hwx2_0 : ∀ i : grid2.Coords, EltTy.bits .bf16 = 32 ∨ (Rect.block (s := S4x8192x4096) S1x2048x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S16384x4096.size a
  hwx2_1 : ∀ i : grid2.Coords, EltTy.bits .bf16 = 32 ∨ (Rect.block (s := S16384x4096) S512x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1x1.size a ≤ S4x1x1.size a
  hwx2_2 : ∀ i : grid2.Coords, EltTy.bits .f32 = 32 ∨ (Rect.block (s := S4x1x1) S1x1x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x512.size a ≤ S1x16384.size a
  hwx2_3 : ∀ i : grid2.Coords, EltTy.bits .f32 = 32 ∨ (Rect.block (s := S1x16384) S1x512.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2048x512.size a ≤ S8192x16384.size a
  hwx2_4 : ∀ i : grid2.Coords, EltTy.bits .f32 = 32 ∨ (Rect.block (s := S8192x16384) S2048x512.size (cc2_transform_4 i) (hinb2_4 i)).WholeWords (EltTy.packing .f32)

variable [Facts₀]

def dot_S2048x512_S512x512_S2048x512_1_1_0_0_n_n : DotDims S2048x512 S512x512 S2048x512 where
  lhsContracting := [1]
  rhsContracting := [1]
  lhsNonContracting := [0]
  rhsNonContracting := [0]
  lhsBatch := []
  rhsBatch := []
  wf := dot_S2048x512_S512x512_S2048x512_1_1_0_0_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x1x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x1x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x1x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x256x4096.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v7) S1x2048x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S512x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1) S1x1x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v8) S1x512.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v9) S2048x512.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S8192x4096 : Shape := ⟨2, ![8192, 4096]⟩
abbrev S16384x4096 : Shape := ⟨2, ![16384, 4096]⟩
abbrev S16384 : Shape := ⟨1, ![16384]⟩
abbrev S4x4096 : Shape := ⟨2, ![4, 4096]⟩
abbrev S4 : Shape := ⟨1, ![4]⟩
abbrev S4x4096x4096 : Shape := ⟨3, ![4, 4096, 4096]⟩
abbrev S1x8192x4096 : Shape := ⟨3, ![1, 8192, 4096]⟩
abbrev S4x1x4096 : Shape := ⟨3, ![4, 1, 4096]⟩
abbrev S4x8192x4096 : Shape := ⟨3, ![4, 8192, 4096]⟩
abbrev S4x1x1 : Shape := ⟨3, ![4, 1, 1]⟩
abbrev S_ : Shape := ⟨0, ![]⟩
abbrev S4x4096x8192 : Shape := ⟨3, ![4, 4096, 8192]⟩
abbrev S8192x4x4096 : Shape := ⟨3, ![8192, 4, 4096]⟩
abbrev S8192x16384 : Shape := ⟨2, ![8192, 16384]⟩
abbrev S1x16384 : Shape := ⟨2, ![1, 16384]⟩

abbrev nBuf : Space → Nat
  | .hbm => 49
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S16384x4096, .f32⟩
  | .hbm, ⟨2, _⟩ => ⟨S16384, .f32⟩
  | .hbm, ⟨3, _⟩ => ⟨S4x4096, .f32⟩
  | .hbm, ⟨4, _⟩ => ⟨S4, .f32⟩
  | .hbm, ⟨5, _⟩ => ⟨S4, .f32⟩
  | .hbm, ⟨6, _⟩ => ⟨S4x4096x4096, .f32⟩
  | .hbm, ⟨7, _⟩ => ⟨S1x8192x4096, .f32⟩
  | .hbm, ⟨8, _⟩ => ⟨S4x1x4096, .f32⟩
  | .hbm, ⟨9, _⟩ => ⟨S4x8192x4096, .f32⟩
  | .hbm, ⟨10, _⟩ => ⟨S4x8192x4096, .f32⟩
  | .hbm, ⟨11, _⟩ => ⟨S4x8192x4096, .f32⟩
  | .hbm, ⟨12, _⟩ => ⟨S4x1x1, .f32⟩
  | .hbm, ⟨13, _⟩ => ⟨S4x8192x4096, .f32⟩
  | .hbm, ⟨14, _⟩ => ⟨S4x8192x4096, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S4x8192x4096, .f32⟩
  | .hbm, ⟨19, _⟩ => ⟨S4x8192x4096, .f32⟩
  | .hbm, ⟨20, _⟩ => ⟨S_, .f32⟩
  | .hbm, ⟨21, _⟩ => ⟨S4x8192x4096, .f32⟩
  | .hbm, ⟨22, _⟩ => ⟨S4x8192x4096, .f32⟩
  | .hbm, ⟨23, _⟩ => ⟨S4x8192x4096, .f32⟩
  | .hbm, ⟨24, _⟩ => ⟨S4x8192x4096, .f32⟩
  | .hbm, ⟨25, _⟩ => ⟨S4x8192x4096, .f32⟩
  | .hbm, ⟨26, _⟩ => ⟨S4x1x4096, .f32⟩
  | .hbm, ⟨27, _⟩ => ⟨S4x4096x4096, .f32⟩
  | .hbm, ⟨28, _⟩ => ⟨S4x4096x4096, .f32⟩
  | .hbm, ⟨29, _⟩ => ⟨S4x1x1, .f32⟩
  | .hbm, ⟨30, _⟩ => ⟨S4x4096x4096, .f32⟩
  | .hbm, ⟨31, _⟩ => ⟨S4x4096x4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S4x4096x4096, .f32⟩
  | .hbm, ⟨36, _⟩ => ⟨S4x4096x4096, .f32⟩
  | .hbm, ⟨37, _⟩ => ⟨S_, .f32⟩
  | .hbm, ⟨38, _⟩ => ⟨S4x4096x4096, .f32⟩
  | .hbm, ⟨39, _⟩ => ⟨S4x4096x4096, .f32⟩
  | .hbm, ⟨40, _⟩ => ⟨S4x4096x4096, .f32⟩
  | .hbm, ⟨41, _⟩ => ⟨S4x4096x4096, .f32⟩
  | .hbm, ⟨42, _⟩ => ⟨S4x4096x4096, .f32⟩
  | .hbm, ⟨43, _⟩ => ⟨S4x4096x8192, .f32⟩
  | .hbm, ⟨44, _⟩ => ⟨S8192x4x4096, .f32⟩
  | .hbm, ⟨45, _⟩ => ⟨S8192x16384, .f32⟩
  | .hbm, ⟨46, _⟩ => ⟨S1x16384, .f32⟩
  | .hbm, ⟨47, _⟩ => ⟨S8192x16384, .f32⟩
  | .hbm, ⟨48, _⟩ => ⟨S8192x16384, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_cst_2 : Ref sig .tc := ⟨.hbm, 33, rfl⟩
abbrev main_call2_v0 : Ref sig .tc := ⟨.hbm, 34, rfl⟩
abbrev main_call2_v1 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩

abbrev nD : Nat := 1
abbrev τ : Topo := Topo.v7x

variable {F : FTy → Type} [FloatOps F]

class Facts₀ : Prop where
  shapeCasts_S16384x4096_S4x4096x4096 : S16384x4096.ShapeCasts S4x4096x4096
  bcast_S8192x4096_S1x8192x4096_1_2 : S8192x4096.BroadcastsInDim S1x8192x4096 (![1, 2] : Fin 2 → Fin S1x8192x4096.rank)
  bcast_S4x4096_S4x1x4096_0_2 : S4x4096.BroadcastsInDim S4x1x4096 (![0, 2] : Fin 2 → Fin S4x1x4096.rank)
  bcast_S1x8192x4096_S4x8192x4096_0_1_2 : S1x8192x4096.BroadcastsInDim S4x8192x4096 (![0, 1, 2] : Fin 3 → Fin S4x8192x4096.rank)
  bcast_S4x1x4096_S4x8192x4096_0_1_2 : S4x1x4096.BroadcastsInDim S4x8192x4096 (![0, 1, 2] : Fin 3 → Fin S4x8192x4096.rank)
  bcast_S4_S4x1x1_0 : S4.BroadcastsInDim S4x1x1 (![0] : Fin 1 → Fin S4x1x1.rank)
  bcast_S4x1x1_S4x8192x4096_0_1_2 : S4x1x1.BroadcastsInDim S4x8192x4096 (![0, 1, 2] : Fin 3 → Fin S4x8192x4096.rank)
  bcast_S_S4x8192x4096 : S_.BroadcastsInDim S4x8192x4096 (![] : Fin 0 → Fin S4x8192x4096.rank)
  bcast_S4x1x4096_S4x4096x4096_0_1_2 : S4x1x4096.BroadcastsInDim S4x4096x4096 (![0, 1, 2] : Fin 3 → Fin S4x4096x4096.rank)
  bcast_S4x1x1_S4x4096x4096_0_1_2 : S4x1x1.BroadcastsInDim S4x4096x4096 (![0, 1, 2] : Fin 3 → Fin S4x4096x4096.rank)
  bcast_S_S4x4096x4096 : S_.BroadcastsInDim S4x4096x4096 (![] : Fin 0 → Fin S4x4096x4096.rank)
  transposes_S4x4096x8192_S8192x4x4096_2_0_1 : S4x4096x8192.Transposes [2, 0, 1] S8192x4x4096
  shapeCasts_S8192x4x4096_S8192x16384 : S8192x4x4096.ShapeCasts S8192x16384
  bcast_S16384_S1x16384_1 : S16384.BroadcastsInDim S1x16384 (![1] : Fin 1 → Fin S1x16384.rank)
  bcast_S1x16384_S8192x16384_0_1 : S1x16384.BroadcastsInDim S8192x16384 (![0, 1] : Fin 2 → Fin S8192x16384.rank)
  dot_S4x4096x4096_S4x8192x4096_S4x4096x8192_2_2_1_1_0_0_wf : DotDims.WF S4x4096x4096 S4x8192x4096 S4x4096x8192 [2] [2] [1] [1] [0] [0]

variable [Facts₀]

def dot_S4x4096x4096_S4x8192x4096_S4x4096x8192_2_2_1_1_0_0 : DotDims S4x4096x4096 S4x8192x4096 S4x4096x8192 where
  lhsContracting := [2]
  rhsContracting := [2]
  lhsNonContracting := [1]
  rhsNonContracting := [1]
  lhsBatch := [0]
  rhsBatch := [0]
  wf := dot_S4x4096x4096_S4x8192x4096_S4x4096x8192_2_2_1_1_0_0_wf

class Facts : Prop extends Facts₀ where

variable [Facts]
-- ==== Proof.Spec.lean ====
/-
  The mathematics of the certificate, stated once over plain extended reals and literal index types.

  Both programs compute, for a token row `b` and an output feature `n` lying in chunk `c = n / 4096`,

      out (b, n) = Σ_j (Lw n j · ws c) · (Lx c b j · is c) + bias n,

  where `Lw n j = q ((w (n, j) · sm (c, j)) / ws c)` and `Lx c b j = q ((x (b, j) / sm (c, j)) / is c)` are the
  integer quantization levels, `q v = roundeven (min 127 (max (-127) v))`.
  The reference multiplies each level by its step before the contraction; the kernel contracts the bare
  levels, eight column blocks of 512 at a time, and multiplies the finished sum by `is c · ws c` once.
  A level is always a real number in [-127, 127] (the clip), so the two agree as soon as the two steps
  `is c`, `ws c` are finite: that is distributivity of a finite factor over a finite sum of reals.
-/
import Idealize.ShloMosaic.PureOps.Ideal
import Idealize.ShloMosaic.Lib.ValueIdx

noncomputable section

namespace Cert.Spec

open Idealize.ShloMosaic Idealize.ShloMosaic.ValueIdx

/-- activations `x`: 8192 tokens by 4096 input features -/
abbrev Sx : Shape := ⟨2, ![8192, 4096]⟩
/-- weight: 16384 output features by 4096 input features -/
abbrev Sw : Shape := ⟨2, ![16384, 4096]⟩
/-- bias: one per output feature -/
abbrev Sb : Shape := ⟨1, ![16384]⟩
/-- smoothing scales: one row of 4096 per chunk -/
abbrev Ssm : Shape := ⟨2, ![4, 4096]⟩
/-- a per-chunk step -/
abbrev Sc : Shape := ⟨1, ![4]⟩
/-- the four quantized copies of the activations -/
abbrev Sxq : Shape := ⟨3, ![4, 8192, 4096]⟩
/-- the result -/
abbrev So : Shape := ⟨2, ![8192, 16384]⟩

/-- The lower and upper clip bounds, as the two programs spell them. -/
abbrev lo : EReal := Ideal.ofBits .f32 0xC2FE0000#32
abbrev hi : EReal := Ideal.ofBits .f32 0x42FE0000#32

/-- The quantization level of a value: clipped to [lo, hi], then rounded to the nearest integer, ties to even. -/
def qlevel (v : EReal) : EReal := Ideal.liftRound Ideal.roundHalfEven (min hi (max lo v))

/-- The chunk of an output feature. -/
abbrev chunk (n : Fin 16384) : Fin 4 := ⟨n.val / 4096, by have := n.isLt; omega⟩

/-- The weight's level at output feature `n`, input feature `j`. -/
def wlev (w : Sw.Idx → EReal) (sm : Ssm.Idx → EReal) (ws : Sc.Idx → EReal) (n : Fin 16384) (j : Fin 4096) : EReal :=
  qlevel (Ideal.div (w (ix2 n j) * sm (ix2 (chunk n) j)) (ws (ix1 (chunk n))))

/-- The activation's level in chunk `c` at token `b`, input feature `j`. -/
def xlev (x : Sx.Idx → EReal) (sm : Ssm.Idx → EReal) (is : Sc.Idx → EReal) (c : Fin 4) (b : Fin 8192) (j : Fin 4096) : EReal :=
  qlevel (Ideal.div (Ideal.div (x (ix2 b j)) (sm (ix2 c j))) (is (ix1 c)))

/-- The quantized weight array the first launch leaves. -/
def QW (w : Sw.Idx → EReal) (sm : Ssm.Idx → EReal) (ws : Sc.Idx → EReal) : Sw.Idx → EReal :=
  fun i => wlev w sm ws (i 0) (i 1)

/-- The four quantized activation arrays the second launch leaves. -/
def XQ (x : Sx.Idx → EReal) (sm : Ssm.Idx → EReal) (is : Sc.Idx → EReal) : Sxq.Idx → EReal :=
  fun i => xlev x sm is (i 0) (i 1) (i 2)

/-- Column `q` of column block `k`. -/
abbrev col (k : Fin 8) (q : Fin 512) : Fin 4096 := ⟨k.val * 512 + q.val, by have := k.isLt; have := q.isLt; omega⟩

/-- What the third launch leaves, from the arrays it finds: the contraction of the two level arrays, block by
    block over the eight column blocks, times the chunk's combined step, plus the bias. -/
def MM (xq : Sxq.Idx → EReal) (qw : Sw.Idx → EReal) (sc : Sc.Idx → EReal) (bias : Sb.Idx → EReal) : So.Idx → EReal :=
  fun i => (∑ k : Fin 8, ∑ q : Fin 512, xq (ix3 (chunk (i 1)) (i 0) (col k q)) * qw (ix2 (i 1) (col k q))) * sc (ix1 (chunk (i 1)))
    + bias (ix1 (i 1))

/-! ### The three launches, each over the arrays it finds at its entry

The host lines before each launch only re-lay the per-chunk rows as `[4, 1, 4096]` and the per-chunk steps as
`[4, 1, 1]`, and the bias as `[1, 16384]`; the launches are stated over those shapes. -/

/-- the smoothing rows as the launches find them -/
abbrev Ssm3 : Shape := ⟨3, ![4, 1, 4096]⟩
/-- a per-chunk step as the launches find it -/
abbrev Sc3 : Shape := ⟨3, ![4, 1, 1]⟩
/-- the bias as the third launch finds it -/
abbrev Sb2 : Shape := ⟨2, ![1, 16384]⟩

/-- What the first launch leaves in its output array, from the arrays it finds. -/
def QW3 (w : Sw.Idx → EReal) (sm3 : Ssm3.Idx → EReal) (ws3 : Sc3.Idx → EReal) : Sw.Idx → EReal :=
  fun i => qlevel (Ideal.div (w i * sm3 (ix3 (chunk (i 0)) (0 : Fin 1) (i 1))) (ws3 (ix3 (chunk (i 0)) (0 : Fin 1) (0 : Fin 1))))

/-- What the second launch leaves in its output array, from the arrays it finds. -/
def XQ3 (x : Sx.Idx → EReal) (sm3 : Ssm3.Idx → EReal) (is3 : Sc3.Idx → EReal) : Sxq.Idx → EReal :=
  fun i => qlevel (Ideal.div (Ideal.div (x (ix2 (i 1) (i 2))) (sm3 (ix3 (i 0) (0 : Fin 1) (i 2)))) (is3 (ix3 (i 0) (0 : Fin 1) (0 : Fin 1))))

/-- What the third launch leaves in its output array, from the arrays it finds. -/
def MM3 (xq : Sxq.Idx → EReal) (qw : Sw.Idx → EReal) (sc3 : Sc3.Idx → EReal) (bias2 : Sb2.Idx → EReal) : So.Idx → EReal :=
  fun i => (∑ k : Fin 8, ∑ q : Fin 512, xq (ix3 (chunk (i 1)) (i 0) (col k q)) * qw (ix2 (i 1) (col k q)))
      * sc3 (ix3 (chunk (i 1)) (0 : Fin 1) (0 : Fin 1))
    + bias2 (ix2 (0 : Fin 1) (i 1))

/-- The smoothing rows re-laid as `[4, 1, 4096]`. -/
def relaySm (sm : Ssm.Idx → EReal) : Ssm3.Idx → EReal := fun i => sm (ix2 (i 0) (i 2))
/-- A per-chunk step re-laid as `[4, 1, 1]`. -/
def relayStep (s : Sc.Idx → EReal) : Sc3.Idx → EReal := fun i => s (ix1 (i 0))
/-- The product of the two steps, re-laid as `[4, 1, 1]`. -/
def relayProd (is ws : Sc.Idx → EReal) : Sc3.Idx → EReal := fun i => is (ix1 (i 0)) * ws (ix1 (i 0))
/-- The bias re-laid as `[1, 16384]`. -/
def relayBias (bias : Sb.Idx → EReal) : Sb2.Idx → EReal := fun i => bias (ix1 (i 1))

/-- The three launches composed over the re-laid arguments are the kernel's function `K` below. -/
theorem MM3_eq (x : Sx.Idx → EReal) (w : Sw.Idx → EReal) (bias : Sb.Idx → EReal) (sm : Ssm.Idx → EReal) (is ws : Sc.Idx → EReal) :
    MM3 (XQ3 x (relaySm sm) (relayStep is)) (QW3 w (relaySm sm) (relayStep ws)) (relayProd is ws) (relayBias bias)
      = MM (XQ x sm is) (QW w sm ws) (fun c => is c * ws c) bias := rfl

/-- The kernel's result as a function of its six arguments. -/
def K (x : Sx.Idx → EReal) (w : Sw.Idx → EReal) (bias : Sb.Idx → EReal) (sm : Ssm.Idx → EReal) (is ws : Sc.Idx → EReal) :
    So.Idx → EReal :=
  MM (XQ x sm is) (QW w sm ws) (fun c => is c * ws c) bias

/-- The reference's result as a function of its six arguments. -/
def R (x : Sx.Idx → EReal) (w : Sw.Idx → EReal) (bias : Sb.Idx → EReal) (sm : Ssm.Idx → EReal) (is ws : Sc.Idx → EReal) :
    So.Idx → EReal :=
  fun i => (∑ j : Fin 4096, (wlev w sm ws (i 1) j * ws (ix1 (chunk (i 1)))) * (xlev x sm is (chunk (i 1)) (i 0) j * is (ix1 (chunk (i 1)))))
    + bias (ix1 (i 1))

end Cert.Spec

end
-- ==== Proof.Weights.lean ====
/-
  The first launch: the weight's quantization levels.

  Point `t` of its 64 handles rows 256·t … 256·t + 255 of the weight and all 4096 columns; sixteen consecutive points
  lie in one chunk, whose smoothing row and step the launch reads as one-row blocks. Every point writes its own block
  back, the blocks tile the array, and an entry of a block is the level of (weight × smoothing) / step at that entry:
  the array the launch leaves is `QW3` of the arrays it finds.
-/
import proofs.«414508_j80762565034003_3_alg».proof.Proof.Gen.KernelIdeal.Frame
import proofs.«414508_j80762565034003_3_alg».proof.Proof.Spec
import Idealize.ShloMosaic.Lib.Pipeline.Value
import Idealize.ShloMosaic.Lib.ValueIdx

noncomputable section

namespace Cert.KernelIdeal.Weights

open Cert.KernelIdeal Cert.KernelIdeal.Gen Idealize.ShloMosaic Idealize.ShloMosaic.TcCoe Idealize.SL.Sem
open Idealize.ShloMosaic.ValueIdx
open Idealize.ShloMosaic.Pipeline (Dat)

/-- The smoothing row, re-laid as one row and repeated down the 256 rows, read at (p, q): column q of the row. -/
theorem smRow_apply (x1 : Vec Ideal S1x1x4096 .f32) (h1 : S1x1x4096.ShapeCasts S1x4096) (h2 : S1x4096.Broadcasts S256x4096)
    (p : Fin 256) (q : Fin 4096) :
    broadcastTo S256x4096 (shapeCast S1x4096 x1 h1) h2 (ix2 p q) = x1 (ix3 (0 : Fin 1) (0 : Fin 1) q) := by
  refine (broadcastTo_apply _ h2 (ix2 p q) (ix2 (0 : Fin 1) q) ?_).trans ?_
  · intro a
    match a with
    | ⟨0, _⟩ => rfl
    | ⟨1, _⟩ => rfl
  · refine shapeCast_apply x1 h1 (ix2 (0 : Fin 1) q) (ix3 (0 : Fin 1) (0 : Fin 1) q) ?_
    rw [Shape.rowMajor_val_two, Shape.rowMajor_val_three]
    rfl

/-- The chunk's step, re-laid as one entry and repeated over the block, read at (p, q): the entry. -/
theorem step_apply (x2 : Vec Ideal S1x1x1 .f32) (h1 : S1x1x1.ShapeCasts S1x1) (h2 : S1x1.Broadcasts S256x4096)
    (p : Fin 256) (q : Fin 4096) :
    broadcastTo S256x4096 (shapeCast S1x1 x2 h1) h2 (ix2 p q) = x2 (ix3 (0 : Fin 1) (0 : Fin 1) (0 : Fin 1)) := by
  refine (broadcastTo_apply _ h2 (ix2 p q) (ix2 (0 : Fin 1) (0 : Fin 1)) ?_).trans ?_
  · intro a
    match a with
    | ⟨0, _⟩ => rfl
    | ⟨1, _⟩ => rfl
  · refine shapeCast_apply x2 h1 (ix2 (0 : Fin 1) (0 : Fin 1)) (ix3 (0 : Fin 1) (0 : Fin 1) (0 : Fin 1)) ?_
    rw [Shape.rowMajor_val_two, Shape.rowMajor_val_three]
    rfl

/-- The body's arithmetic at entry (p, q) of the block: the quantization level of the smoothed weight over the step. -/
theorem pay_apply (x0 : Vec Ideal S256x4096 .f32) (x1 : Vec Ideal S1x1x4096 .f32) (x2 : Vec Ideal S1x1x1 .f32)
    (p : Fin 256) (q : Fin 4096) :
    k0_pay1 x0 x1 x2 (ix2 p q)
      = Cert.Spec.qlevel (Ideal.div (x0 (ix2 p q) * x1 (ix3 (0 : Fin 1) (0 : Fin 1) q)) (x2 (ix3 (0 : Fin 1) (0 : Fin 1) (0 : Fin 1)))) := by
  unfold k0_pay1 Cert.Spec.qlevel
  show Ideal.liftRound Ideal.roundHalfEven (min Cert.Spec.hi (max Cert.Spec.lo (Ideal.div (x0 (ix2 p q) * broadcastTo S256x4096 (shapeCast S1x4096 x1 _) _ (ix2 p q)) (broadcastTo S256x4096 (shapeCast S1x1 x2 _) _ (ix2 p q))))) = _
  rw [smRow_apply, step_apply]

/-- The zero offsets on two axes. -/
theorem zero2 : (![0, 0] : Fin 2 → Nat) = fun _ => 0 := funext fun a => by fin_cases a <;> rfl
/-- The zero offsets on three axes. -/
theorem zero3 : (![0, 0, 0] : Fin 3 → Nat) = fun _ => 0 := funext fun a => by fin_cases a <;> rfl

/-- The index maps over the 64 points: point t takes row block t of the weight and of the output, and the
    row and step of chunk t / 16. -/
theorem idx_facts : ∀ t : Fin cfg0.N,
    win0_0.index t (0 : Fin 2) = t.val ∧ win0_0.index t (1 : Fin 2) = 0
    ∧ win0_1.index t (0 : Fin 3) = t.val / 16 ∧ win0_1.index t (1 : Fin 3) = 0 ∧ win0_1.index t (2 : Fin 3) = 0
    ∧ win0_2.index t (0 : Fin 3) = t.val / 16 ∧ win0_2.index t (1 : Fin 3) = 0 ∧ win0_2.index t (2 : Fin 3) = 0
    ∧ win0_3.index t (0 : Fin 2) = t.val ∧ win0_3.index t (1 : Fin 2) = 0 :=
  (by decide +kernel : ∀ t : Fin grid0.N, _)

/-- A grid point is below 64. -/
theorem point_lt (t : Fin cfg0.N) : t.val < 64 := lt_of_lt_of_eq t.isLt N_0

section Blocks
variable (V : (c : Dev nD) → (b : Ref sig .tc) → Buf (Elt Ideal) ((c : Thread nD τ).loc b)) (c : Dev nD)

/-- The weight's block at point t, entry (p, q): the weight at row t * 256 + p, column q. -/
theorem wblk_apply (t : Fin cfg0.N) (p : Fin 256) (q : Fin 4096) (n : Fin 16384) (hn : n.val = t.val * 256 + p.val) :
    (iblk0 (F := Ideal) V c 0 t : Vec Ideal S256x4096 .f32) (ix2 p q) = (V c main_arg1 : S16384x4096.Idx → EReal) (ix2 n q) := by
  obtain ⟨e0, e1, -⟩ := idx_facts t
  unfold iblk0
  rw [View.read_apply]
  show V c main_arg1 _ = V c main_arg1 _
  refine congrArg (V c main_arg1) (funext fun a => Fin.ext ?_)
  match a with
  | ⟨0, _⟩ => show win0_0.index t (0 : Fin 2) * 256 + 1 * p.val = n.val; omega
  | ⟨1, _⟩ => show win0_0.index t (1 : Fin 2) * 4096 + 1 * q.val = q.val; omega

/-- The smoothing rows' block at point t, entry (0, 0, q): the row of chunk t / 16, column q. -/
theorem smblk_apply (t : Fin cfg0.N) (q : Fin 4096) (k : Fin 4) (hk : k.val = t.val / 16) :
    (iblk0 (F := Ideal) V c 1 t : Vec Ideal S1x1x4096 .f32) (ix3 (0 : Fin 1) (0 : Fin 1) q)
      = (V c main_v2 : S4x1x4096.Idx → EReal) (ix3 k (0 : Fin 1) q) := by
  obtain ⟨-, -, e2, e3, e4, -⟩ := idx_facts t
  unfold iblk0
  rw [View.read_apply]
  show V c main_v2 _ = V c main_v2 _
  refine congrArg (V c main_v2) (funext fun a => Fin.ext ?_)
  match a with
  | ⟨0, _⟩ => show win0_1.index t (0 : Fin 3) * 1 + 1 * (0 : Fin 1).val = k.val; rw [e2, hk]; simp
  | ⟨1, _⟩ => show win0_1.index t (1 : Fin 3) * 1 + 1 * (0 : Fin 1).val = (0 : Fin 1).val; rw [e3]; simp
  | ⟨2, _⟩ => show win0_1.index t (2 : Fin 3) * 4096 + 1 * q.val = q.val; omega

/-- The steps' block at point t, its one entry: the step of chunk t / 16. -/
theorem stblk_apply (t : Fin cfg0.N) (k : Fin 4) (hk : k.val = t.val / 16) :
    (iblk0 (F := Ideal) V c 2 t : Vec Ideal S1x1x1 .f32) (ix3 (0 : Fin 1) (0 : Fin 1) (0 : Fin 1))
      = (V c main_v3 : S4x1x1.Idx → EReal) (ix3 k (0 : Fin 1) (0 : Fin 1)) := by
  obtain ⟨-, -, -, -, -, e5, e6, e7, -⟩ := idx_facts t
  unfold iblk0
  rw [View.read_apply]
  show V c main_v3 _ = V c main_v3 _
  refine congrArg (V c main_v3) (funext fun a => Fin.ext ?_)
  match a with
  | ⟨0, _⟩ => show win0_2.index t (0 : Fin 3) * 1 + 1 * (0 : Fin 1).val = k.val; rw [e5, hk]; simp
  | ⟨1, _⟩ => show win0_2.index t (1 : Fin 3) * 1 + 1 * (0 : Fin 1).val = (0 : Fin 1).val; rw [e6]; simp
  | ⟨2, _⟩ => show win0_2.index t (2 : Fin 3) * 1 + 1 * (0 : Fin 1).val = (0 : Fin 1).val; rw [e7]; simp

/-- An array of the output's shape read through the output's block at point t, entry (p, q): the array at row
    t * 256 + p, column q. -/
theorem oblk_apply (G : S16384x4096.Idx → EReal) (t : Fin cfg0.N) (p : Fin 256) (q : Fin 4096) (n : Fin 16384)
    (hn : n.val = t.val * 256 + p.val) :
    ((cfg0.win 3).blk t).view.read (Elt Ideal) G (ix2 p q) = G (ix2 n q) := by
  obtain ⟨-, -, -, -, -, -, -, -, e8, e9⟩ := idx_facts t
  rw [View.read_apply]
  show G _ = G _
  refine congrArg G (funext fun a => Fin.ext ?_)
  match a with
  | ⟨0, _⟩ => show win0_3.index t (0 : Fin 2) * 256 + 1 * p.val = n.val; omega
  | ⟨1, _⟩ => show win0_3.index t (1 : Fin 2) * 4096 + 1 * q.val = q.val; omega

end Blocks

section Array
variable (V : (c : Dev nD) → (b : Ref sig .tc) → Buf (Elt Ideal) ((c : Thread nD τ).loc b)) (c : Dev nD)

/-- What point t writes back is block t of the quantized weight array. -/
theorem flushed_eq (t : Fin cfg0.N) :
    (dat0 (F := Ideal) V c).flushed 3 t
      = ((cfg0.win 3).blk t).view.read (Elt Ideal) (Cert.Spec.QW3 (V c main_arg1) (V c main_v2) (V c main_v3)) := by
  show (cfg0.win 3).cut (grid0.coords t) ((dat0 V c).after 3 t) = _
  rw [after0_3]
  unfold out0_3
  rw [View.canon_unit_zero zero2]
  simp only [View.ld_unit_zero (S := S256x4096) zero2, View.ld_unit_zero (S := S1x1x4096) zero3, View.ld_unit_zero (S := S1x1x1) zero3]
  funext j
  obtain ⟨p, q, rfl⟩ : ∃ (p : Fin 256) (q : Fin 4096), j = ix2 p q := ⟨j 0, j 1, eq_ix2 j⟩
  have ht : t.val < 64 := point_lt t
  have hp : p.val < 256 := p.isLt
  let n : Fin 16384 := ⟨t.val * 256 + p.val, by omega⟩
  have hk : (Cert.Spec.chunk n).val = t.val / 16 := by show (t.val * 256 + p.val) / 4096 = t.val / 16; omega
  show k0_pay1 (iblk0 V c 0 t) (iblk0 V c 1 t) (iblk0 V c 2 t) (ix2 p q) = _
  rw [pay_apply, wblk_apply V c t p q n rfl, smblk_apply V c t q (Cert.Spec.chunk n) hk, stblk_apply V c t (Cert.Spec.chunk n) hk,
    oblk_apply _ t p q n rfl]
  rfl

/-- An index of the array is in point t's block iff each coordinate is in the block's range on its axis. -/
theorem mem_blk (t : Fin cfg0.N) (i : S16384x4096.Idx) :
    i ∈ ((cfg0.win 3).blk t).view.set ↔ ∀ a : Fin 2, win0_3.index t a * S256x4096.size a ≤ (i a).val ∧ (i a).val < win0_3.index t a * S256x4096.size a + S256x4096.size a := by
  show i ∈ ((View.whole main_v4).slice (win0_3.rect t)).set ↔ _
  rw [View.set_slice_whole, Rect.mem_set_unit]
  exact Iff.rfl

/-- Row r of the array is in the block of point r / 256. -/
theorem cover (i : S16384x4096.Idx) :
    ∃ t : Fin cfg0.N, (cfg0.win 3).flush t = true ∧ i ∈ ((cfg0.win 3).blk t).view.set := by
  have hi0 : (i 0).val < 16384 := (i 0).isLt
  have hi1 : (i 1).val < 4096 := (i 1).isLt
  have hN : cfg0.N = 64 := N_0
  obtain ⟨t, ht⟩ : ∃ t : Fin cfg0.N, t.val = (i 0).val / 256 := ⟨⟨(i 0).val / 256, by rw [hN]; omega⟩, rfl⟩
  refine ⟨t, flush0_3 t, ?_⟩
  rw [mem_blk]
  obtain ⟨-, -, -, -, -, -, -, -, e8, e9⟩ := idx_facts t
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 4096 ≤ (i 1).val ∧ (i 1).val < win0_3.index t (1 : Fin 2) * 4096 + 4096; omega

end Array

/-- The weight array after the first launch: every entry the quantization level of the smoothed weight over
    its chunk's step, whatever arrays the launch finds. -/
theorem final0 (V : (c : Dev nD) → (b : Ref sig .tc) → Buf (Elt Ideal) ((c : Thread nD τ).loc b)) (c : Dev nD) :
    (dat0 (F := Ideal) V c).arrAt 3 cfg0.N = Cert.Spec.QW3 (V c main_arg1) (V c main_v2) (V c main_v3) := by
  exact (dat0 (F := Ideal) V c).arrAt_eq_of_cover 3 _ (fun t _ => flushed_eq V c t) cover

end Cert.KernelIdeal.Weights

end
-- ==== Proof.Activations.lean ====
/-
  The second launch: the four quantized copies of the activations.

  Point `t` of its 32 × 4 is row tile `t / 4` (256 rows, all 4096 columns) and chunk `t % 4`, whose smoothing row and
  step the launch reads as one-row blocks. Every point writes its own block of the [4, 8192, 4096] array back, the
  blocks tile it, and an entry of a block is the level of (activation / smoothing) / step at that entry: the array
  the launch leaves is `XQ3` of the arrays it finds.
-/
import proofs.«414508_j80762565034003_3_alg».proof.Proof.Gen.KernelIdeal.Frame
import proofs.«414508_j80762565034003_3_alg».proof.Proof.Spec
import Idealize.ShloMosaic.Lib.Pipeline.Value
import Idealize.ShloMosaic.Lib.ValueIdx
import Idealize.ShloMosaic.Lib.ValueLayout

noncomputable section

namespace Cert.KernelIdeal.Activations

open Cert.KernelIdeal Cert.KernelIdeal.Gen Idealize.ShloMosaic Idealize.ShloMosaic.TcCoe Idealize.SL.Sem
open Idealize.ShloMosaic.ValueIdx
open Idealize.ShloMosaic.Pipeline (Dat)

/-- The zero offsets of a rank-2 block, however they are spelt. -/
theorem zero2 : (![0, 0] : Fin 2 → Nat) = fun _ => 0 := funext fun a => by fin_cases a <;> rfl
/-- The zero offsets of a rank-3 block, however they are spelt. -/
theorem zero3 : (![0, 0, 0] : Fin 3 → Nat) = fun _ => 0 := funext fun a => by fin_cases a <;> rfl

/-- A one-entry array broadcast to `[a, b]` reads its one entry everywhere. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

/-- The body's payload at an entry of the block: the level of the block's entry over the smoothing row's entry over
    the step. -/
theorem pay_apply (x0 : FVec Ideal S256x4096 .f32) (x1 : FVec Ideal S1x1x4096 .f32) (x2 : FVec Ideal S1x1x1 .f32)
    (u : Fin 1) (p : Fin 256) (q : Fin 4096) :
    k1_pay1 (F := Ideal) x0 x1 x2 (ix3 u p q)
      = Cert.Spec.qlevel (Ideal.div (Ideal.div (x0 (ix2 p q)) (x1 (ix3 (0 : Fin 1) (0 : Fin 1) q))) (x2 (ix3 (0 : Fin 1) (0 : Fin 1) (0 : Fin 1)))) := by
  unfold k1_pay1
  refine (shapeCast_ab_1ab_apply _ _ u p q).trans ?_
  have e1 : broadcastTo S256x4096 (shapeCast S1x4096 x1 shapeCasts_S1x1x4096_S1x4096) broadcasts_S1x4096_S256x4096 (ix2 p q)
      = x1 (ix3 (0 : Fin 1) (0 : Fin 1) q) :=
    (broadcastTo_1b_ab_apply _ _ p q).trans (shapeCast_1ab_ab_apply x1 _ (0 : Fin 1) q)
  have e2 : broadcastTo S256x4096 (shapeCast S1x1 x2 shapeCasts_S1x1x1_S1x1) broadcasts_S1x1_S256x4096 (ix2 p q)
      = x2 (ix3 (0 : Fin 1) (0 : Fin 1) (0 : Fin 1)) :=
    (broadcastTo_11_ab_apply _ _ p q).trans (shapeCast_1ab_ab_apply x2 _ (0 : Fin 1) (0 : Fin 1))
  show Cert.Spec.qlevel (Ideal.div (Ideal.div (x0 (ix2 p q))
      (broadcastTo S256x4096 (shapeCast S1x4096 x1 shapeCasts_S1x1x4096_S1x4096) broadcasts_S1x4096_S256x4096 (ix2 p q)))
      (broadcastTo S256x4096 (shapeCast S1x1 x2 shapeCasts_S1x1x1_S1x1) broadcasts_S1x1_S256x4096 (ix2 p q))) = _
  rw [e1, e2]

/-- The printed index maps over the grid: point `t` works on row block `t / 4` of chunk `t % 4`. -/
theorem idx_facts : ∀ t : Fin cfg1.N,
    win1_0.index t (0 : Fin 2) = t.val / 4 ∧ win1_0.index t (1 : Fin 2) = 0
    ∧ win1_1.index t (0 : Fin 3) = t.val % 4 ∧ win1_1.index t (1 : Fin 3) = 0 ∧ win1_1.index t (2 : Fin 3) = 0
    ∧ win1_2.index t (0 : Fin 3) = t.val % 4 ∧ win1_2.index t (1 : Fin 3) = 0 ∧ win1_2.index t (2 : Fin 3) = 0
    ∧ win1_3.index t (0 : Fin 3) = t.val % 4 ∧ win1_3.index t (1 : Fin 3) = t.val / 4 ∧ win1_3.index t (2 : Fin 3) = 0 :=
  (by decide +kernel : ∀ t : Fin grid1.N, _)

/-- The activation block at point `t` is rows `256 (t / 4) …` of the activations. -/
theorem blk0_apply (V : (c : Dev nD) → (b : Ref sig .tc) → Buf (Elt Ideal) ((c : Thread nD τ).loc b)) (c : Dev nD) (t : Fin cfg1.N) (p : Fin 256) (q : Fin 4096) (b : Fin 8192)
    (hb : b.val = t.val / 4 * 256 + p.val) :
    (iblk1 (F := Ideal) V c 0 t : FVec Ideal S256x4096 .f32) (ix2 p q) = (V c main_arg0 : Cert.Spec.Sx.Idx → EReal) (ix2 b q) := by
  obtain ⟨e0, e1, -⟩ := idx_facts t
  unfold iblk1
  rw [View.read_apply]
  show V c main_arg0 _ = V c main_arg0 _
  congr 1
  funext a
  apply Fin.ext
  match a with
  | ⟨0, _⟩ => show win1_0.index t (0 : Fin 2) * 256 + 1 * p.val = b.val; rw [e0, hb]; omega
  | ⟨1, _⟩ => show win1_0.index t (1 : Fin 2) * 4096 + 1 * q.val = q.val; rw [e1]; omega

/-- The smoothing block at point `t` is the row of chunk `t % 4`. -/
theorem blk1_apply (V : (c : Dev nD) → (b : Ref sig .tc) → Buf (Elt Ideal) ((c : Thread nD τ).loc b)) (c : Dev nD) (t : Fin cfg1.N) (q : Fin 4096) (k : Fin 4)
    (hk : k.val = t.val % 4) :
    (iblk1 (F := Ideal) V c 1 t : FVec Ideal S1x1x4096 .f32) (ix3 (0 : Fin 1) (0 : Fin 1) q)
      = (V c main_v5 : Cert.Spec.Ssm3.Idx → EReal) (ix3 k (0 : Fin 1) q) := by
  obtain ⟨-, -, e0, e1, e2, -⟩ := idx_facts t
  unfold iblk1
  rw [View.read_apply]
  show V c main_v5 _ = V c main_v5 _
  congr 1
  funext a
  apply Fin.ext
  match a with
  | ⟨0, _⟩ => show win1_1.index t (0 : Fin 3) * 1 + 1 * 0 = k.val; rw [e0, hk]; omega
  | ⟨1, _⟩ => show win1_1.index t (1 : Fin 3) * 1 + 1 * 0 = 0; rw [e1]
  | ⟨2, _⟩ => show win1_1.index t (2 : Fin 3) * 4096 + 1 * q.val = q.val; rw [e2]; omega

/-- The step block at point `t` is the step of chunk `t % 4`. -/
theorem blk2_apply (V : (c : Dev nD) → (b : Ref sig .tc) → Buf (Elt Ideal) ((c : Thread nD τ).loc b)) (c : Dev nD) (t : Fin cfg1.N) (k : Fin 4)
    (hk : k.val = t.val % 4) :
    (iblk1 (F := Ideal) V c 2 t : FVec Ideal S1x1x1 .f32) (ix3 (0 : Fin 1) (0 : Fin 1) (0 : Fin 1))
      = (V c main_v6 : Cert.Spec.Sc3.Idx → EReal) (ix3 k (0 : Fin 1) (0 : Fin 1)) := by
  obtain ⟨-, -, -, -, -, e0, e1, e2, -⟩ := idx_facts t
  unfold iblk1
  rw [View.read_apply]
  show V c main_v6 _ = V c main_v6 _
  congr 1
  funext a
  apply Fin.ext
  match a with
  | ⟨0, _⟩ => show win1_2.index t (0 : Fin 3) * 1 + 1 * 0 = k.val; rw [e0, hk]; omega
  | ⟨1, _⟩ => show win1_2.index t (1 : Fin 3) * 1 + 1 * 0 = 0; rw [e1]
  | ⟨2, _⟩ => show win1_2.index t (2 : Fin 3) * 1 + 1 * 0 = 0; rw [e2]

/-- The output block at point `t`, read off a whole array, is rows `256 (t / 4) …` of chunk `t % 4`. -/
theorem blk3_read (G : Cert.Spec.Sxq.Idx → EReal) (t : Fin cfg1.N) (u : Fin 1) (p : Fin 256) (q : Fin 4096)
    (k : Fin 4) (b : Fin 8192) (hk : k.val = t.val % 4) (hb : b.val = t.val / 4 * 256 + p.val) :
    (((cfg1.win 3).blk t).view.read (Elt Ideal) G : FVec Ideal S1x256x4096 .bf16) (ix3 u p q) = G (ix3 k b q) := by
  obtain ⟨-, -, -, -, -, -, -, -, e0, e1, e2⟩ := idx_facts t
  rw [View.read_apply]
  show G _ = G _
  congr 1
  funext a
  apply Fin.ext
  match a with
  | ⟨0, _⟩ => show win1_3.index t (0 : Fin 3) * 1 + 1 * u.val = k.val; rw [e0, hk]; omega
  | ⟨1, _⟩ => show win1_3.index t (1 : Fin 3) * 256 + 1 * p.val = b.val; rw [e1, hb]; omega
  | ⟨2, _⟩ => show win1_3.index t (2 : Fin 3) * 4096 + 1 * q.val = q.val; rw [e2]; omega

/-- What point `t` writes back is its block of the level array of the arrays the launch finds. -/
theorem flushed_eq (V : (c : Dev nD) → (b : Ref sig .tc) → Buf (Elt Ideal) ((c : Thread nD τ).loc b)) (c : Dev nD) (t : Fin cfg1.N) :
    (dat1 (F := Ideal) V c).flushed 3 t
      = ((cfg1.win 3).blk t).view.read (Elt Ideal) (Cert.Spec.XQ3 (V c main_arg0) (V c main_v5) (V c main_v6)) := by
  show (cfg1.win 3).cut (grid1.coords t) ((dat1 V c).after 3 t) = _
  rw [after1_3]
  unfold out1_3
  rw [View.canon_unit_zero zero3]
  simp only [View.ld_unit_zero (S := S256x4096) zero2, View.ld_unit_zero (S := S1x1x4096) zero3,
    View.ld_unit_zero (S := S1x1x1) zero3]
  funext j
  obtain ⟨u, p, q, rfl⟩ : ∃ (u : Fin 1) (p : Fin 256) (q : Fin 4096), j = ix3 u p q := ⟨j 0, j 1, j 2, eq_ix3 j⟩
  have ht : t.val < 128 := by have h := t.isLt; have e : cfg1.N = 128 := N_1; omega
  refine (pay_apply _ _ _ u p q).trans ?_
  rw [blk0_apply V c t p q ⟨t.val / 4 * 256 + p.val, by omega⟩ rfl,
    blk1_apply V c t q ⟨t.val % 4, by omega⟩ rfl,
    blk2_apply V c t ⟨t.val % 4, by omega⟩ rfl,
    blk3_read _ t u p q ⟨t.val % 4, by omega⟩ ⟨t.val / 4 * 256 + p.val, by omega⟩ rfl rfl]
  rfl

/-- An index of the output array is in point `t`'s block iff each coordinate is in the block's range on its axis. -/
theorem mem_blk (t : Fin cfg1.N) (i : S4x8192x4096.Idx) :
    i ∈ ((cfg1.win 3).blk t).view.set ↔ ∀ a : Fin 3, win1_3.index t a * S1x256x4096.size a ≤ (i a).val
      ∧ (i a).val < win1_3.index t a * S1x256x4096.size a + S1x256x4096.size a := by
  show i ∈ ((View.whole main_v7).slice (win1_3.rect t)).set ↔ _
  rw [View.set_slice_whole, Rect.mem_set_unit]
  exact Iff.rfl

/-- Every index of the output array is in some point's block: row `b` of chunk `k` in that of point `(b / 256) 4 + k`. -/
theorem cover (i : S4x8192x4096.Idx) :
    ∃ t : Fin cfg1.N, (cfg1.win 3).flush t = true ∧ i ∈ ((cfg1.win 3).blk t).view.set := by
  have h0 : (i 0).val < 4 := (i 0).isLt
  have h1 : (i 1).val < 8192 := (i 1).isLt
  have h2 : (i 2).val < 4096 := (i 2).isLt
  obtain ⟨t, ht⟩ : ∃ t : Fin cfg1.N, t.val = (i 1).val / 256 * 4 + (i 0).val :=
    ⟨⟨(i 1).val / 256 * 4 + (i 0).val, by rw [show cfg1.N = 128 from N_1]; omega⟩, rfl⟩
  refine ⟨t, flush1_3 t, ?_⟩
  rw [mem_blk]
  obtain ⟨-, -, -, -, -, -, -, -, e0, e1, e2⟩ := idx_facts t
  intro a
  match a with
  | ⟨0, _⟩ =>
    show win1_3.index t (0 : Fin 3) * 1 ≤ (i 0).val ∧ (i 0).val < win1_3.index t (0 : Fin 3) * 1 + 1
    rw [e0, ht]; omega
  | ⟨1, _⟩ =>
    show win1_3.index t (1 : Fin 3) * 256 ≤ (i 1).val ∧ (i 1).val < win1_3.index t (1 : Fin 3) * 256 + 256
    rw [e1, ht]; omega
  | ⟨2, _⟩ =>
    show win1_3.index t (2 : Fin 3) * 4096 ≤ (i 2).val ∧ (i 2).val < win1_3.index t (2 : Fin 3) * 4096 + 4096
    rw [e2]; omega

/-- The four activation arrays after the second launch: every entry the quantization level of the smoothed
    activation over its chunk's step, whatever arrays the launch finds. -/
theorem final1 (V : (c : Dev nD) → (b : Ref sig .tc) → Buf (Elt Ideal) ((c : Thread nD τ).loc b)) (c : Dev nD) :
    (dat1 (F := Ideal) V c).arrAt 3 cfg1.N = Cert.Spec.XQ3 (V c main_arg0) (V c main_v5) (V c main_v6) :=
  (dat1 (F := Ideal) V c).arrAt_eq_of_cover 3 _ (fun t _ => flushed_eq V c t) cover

end Cert.KernelIdeal.Activations

end
-- ==== Proof.ProductPieces.lean ====
/-
  The third kernel's body, case by case and entry by entry: the zero block; the running block plus one column block's
  product (a row of 512 activation levels against a row of 512 weight levels); and the closing scale-and-bias.
-/
import proofs.«414508_j80762565034003_3_alg».proof.Proof.Gen.KernelIdeal.Frame
import proofs.«414508_j80762565034003_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Product

open Cert.KernelIdeal Cert.KernelIdeal.Gen Idealize.ShloMosaic Idealize.ShloMosaic.TcCoe Idealize.SL.Sem
open Idealize.ShloMosaic.ValueIdx
open Idealize.ShloMosaic.Pipeline (Dat)

section Pieces
variable {F : FTy → Type} [FloatOps F]

/-! What the third kernel's body leaves in its output block, case by case, as the body's own arithmetic:
    at a first column block the zero block plus that block's product; at a middle one the running block plus
    the product; at the last one that sum scaled by the chunk's step, plus the bias row. -/

/-- The rank-2 origin is the zero offset. -/
private theorem hz2 : (![0, 0] : Fin 2 → Nat) = fun _ => 0 := funext fun a => by fin_cases a <;> rfl
/-- The rank-3 origin is the zero offset. -/
private theorem hz3 : (![0, 0, 0] : Fin 3 → Nat) = fun _ => 0 := funext fun a => by fin_cases a <;> rfl

theorem out2_A_4_eq (c : Dev nD) (i : grid2.Coords) (arg3 : Memref sig .tc .vmem S1x2048x512 .bf16) (harg3 : arg3.IsWhole) (arg4 : Memref sig .tc .vmem S512x512 .bf16) (harg4 : arg4.IsWhole) (arg5 : Memref sig .tc .vmem S1x1x1 .f32) (harg5 : arg5.IsWhole) (arg6 : Memref sig .tc .vmem S1x512 .f32) (harg6 : arg6.IsWhole) (arg7 : Memref sig .tc .vmem S2048x512 .f32) (harg7 : arg7.IsWhole) (hc0 : cond2_0 i) (hc1 : ¬cond2_1 i) (x0 : Vec F S1x2048x512 .bf16) (x1 : Vec F S512x512 .bf16) (x2 : Vec F S1x1x1 .f32) (x3 : Vec F S1x512 .f32) :
    out2_A_4 c i arg3 harg3 arg4 harg4 arg5 harg5 arg6 harg6 arg7 harg7 hc0 hc1 x0 x1 x2 x3 = k2_pay2 x0 x1 (k2_pay1 (F := F)) := by
  unfold out2_A_4
  rw [View.read_writes_eq_canon _ _ _ (cover2_A_4 c i arg3 harg3 arg4 harg4 arg5 harg5 arg6 harg6 arg7 harg7 hc0 hc1 x0 x1 x2 x3)]
  unfold kernelRun2_A
  dsimp only
  sl_unfold_words
  rw [View.canon_cons_unit_zero (S := S2048x512) hz2, View.readCov_unit_zero (S := S2048x512) _ hz2]
  simp only [View.readAt_eq_ld, harg3.read_unread, harg4.read_unread, harg5.read_unread, harg6.read_unread, harg7.read_unread,
    View.ld_unit_zero (S := S1x2048x512) hz3, View.ld_unit_zero (S := S512x512) hz2, View.ld_unit_zero (S := S1x1x1) hz3,
    View.ld_unit_zero (S := S1x512) hz2, View.ld_unit_zero (S := S2048x512) hz2, View.readCov_unit_zero (S := S2048x512) _ hz2]

theorem out2_B_4_eq (c : Dev nD) (i : grid2.Coords) (arg3 : Memref sig .tc .vmem S1x2048x512 .bf16) (harg3 : arg3.IsWhole) (arg4 : Memref sig .tc .vmem S512x512 .bf16) (harg4 : arg4.IsWhole) (arg5 : Memref sig .tc .vmem S1x1x1 .f32) (harg5 : arg5.IsWhole) (arg6 : Memref sig .tc .vmem S1x512 .f32) (harg6 : arg6.IsWhole) (arg7 : Memref sig .tc .vmem S2048x512 .f32) (harg7 : arg7.IsWhole) (hc0 : ¬cond2_0 i) (hc1 : ¬cond2_1 i) (x0 : Vec F S1x2048x512 .bf16) (x1 : Vec F S512x512 .bf16) (x2 : Vec F S1x1x1 .f32) (x3 : Vec F S1x512 .f32) (xo4 : Vec F S2048x512 .f32) :
    out2_B_4 c i arg3 harg3 arg4 harg4 arg5 harg5 arg6 harg6 arg7 harg7 hc0 hc1 x0 x1 x2 x3 xo4 = k2_pay2 x0 x1 xo4 := by
  unfold out2_B_4
  rw [View.read_writes_eq_canon _ _ _ (cover2_B_4 c i arg3 harg3 arg4 harg4 arg5 harg5 arg6 harg6 arg7 harg7 hc0 hc1 x0 x1 x2 x3 xo4)]
  unfold kernelRun2_B
  dsimp only
  sl_unfold_words
  rw [View.canon_unit_zero hz2]
  simp only [View.readAt_eq_ld, harg3.read_unread, harg4.read_unread, harg5.read_unread, harg6.read_unread, harg7.read_unread,
    View.ld_unit_zero (S := S1x2048x512) hz3, View.ld_unit_zero (S := S512x512) hz2, View.ld_unit_zero (S := S1x1x1) hz3,
    View.ld_unit_zero (S := S1x512) hz2, View.ld_unit_zero (S := S2048x512) hz2, View.readCov_unit_zero (S := S2048x512) _ hz2]

theorem out2_C_4_eq (c : Dev nD) (i : grid2.Coords) (arg3 : Memref sig .tc .vmem S1x2048x512 .bf16) (harg3 : arg3.IsWhole) (arg4 : Memref sig .tc .vmem S512x512 .bf16) (harg4 : arg4.IsWhole) (arg5 : Memref sig .tc .vmem S1x1x1 .f32) (harg5 : arg5.IsWhole) (arg6 : Memref sig .tc .vmem S1x512 .f32) (harg6 : arg6.IsWhole) (arg7 : Memref sig .tc .vmem S2048x512 .f32) (harg7 : arg7.IsWhole) (hc0 : ¬cond2_0 i) (hc1 : cond2_1 i) (x0 : Vec F S1x2048x512 .bf16) (x1 : Vec F S512x512 .bf16) (x2 : Vec F S1x1x1 .f32) (x3 : Vec F S1x512 .f32) (xo4 : Vec F S2048x512 .f32) :
    out2_C_4 c i arg3 harg3 arg4 harg4 arg5 harg5 arg6 harg6 arg7 harg7 hc0 hc1 x0 x1 x2 x3 xo4 = k2_pay3 (k2_pay2 x0 x1 xo4) x2 x3 := by
  unfold out2_C_4
  rw [View.read_writes_eq_canon _ _ _ (cover2_C_4 c i arg3 harg3 arg4 harg4 arg5 harg5 arg6 harg6 arg7 harg7 hc0 hc1 x0 x1 x2 x3 xo4)]
  unfold kernelRun2_C
  dsimp only
  sl_unfold_words
  rw [View.canon_cons_unit_zero (S := S2048x512) hz2, View.readCov_unit_zero (S := S2048x512) _ hz2]
  simp only [View.readAt_eq_ld, harg3.read_unread, harg4.read_unread, harg5.read_unread, harg6.read_unread, harg7.read_unread,
    View.ld_unit_zero (S := S1x2048x512) hz3, View.ld_unit_zero (S := S512x512) hz2, View.ld_unit_zero (S := S1x1x1) hz3,
    View.ld_unit_zero (S := S1x512) hz2, View.ld_unit_zero (S := S2048x512) hz2, View.readCov_unit_zero (S := S2048x512) _ hz2]

end Pieces

/-! The same arithmetic read at an index, on the extended reals. -/

/-- The reset block is zero everywhere. -/
theorem pay1_apply (y : S2048x512.Idx) : k2_pay1 (F := Ideal) y = 0 := by
  unfold k2_pay1
  exact Ideal.ofBits_zero_f32

/-- The product's left operand is read at the output's row … -/
private theorem lhs_axis0 (i : S2048x512.Idx) (q : dot_S2048x512_S512x512_S2048x512_1_1_0_0_n_n.contr.Idx) :
    (dot_S2048x512_S512x512_S2048x512_1_1_0_0_n_n.lhsIdx i q 0).val = (i 0).val := by
  unfold DotDims.lhsIdx
  rw [dif_neg (show ¬(0 : Fin S2048x512.rank) ∈ dot_S2048x512_S512x512_S2048x512_1_1_0_0_n_n.lhsBatch by decide), dif_pos (show (0 : Fin S2048x512.rank) ∈ dot_S2048x512_S512x512_S2048x512_1_1_0_0_n_n.lhsNonContracting by decide)]
  rfl
/-- … and at the contracted coordinate. -/
private theorem lhs_axis1 (i : S2048x512.Idx) (q : dot_S2048x512_S512x512_S2048x512_1_1_0_0_n_n.contr.Idx) :
    (dot_S2048x512_S512x512_S2048x512_1_1_0_0_n_n.lhsIdx i q 1).val = (q ⟨0, by decide⟩).val :=
  dot_S2048x512_S512x512_S2048x512_1_1_0_0_n_n.lhsIdx_val_of_single rfl i q
/-- The product's right operand is read at the output's column, as its own row … -/
private theorem rhs_axis0 (i : S2048x512.Idx) (q : dot_S2048x512_S512x512_S2048x512_1_1_0_0_n_n.contr.Idx) :
    (dot_S2048x512_S512x512_S2048x512_1_1_0_0_n_n.rhsIdx i q 0).val = (i 1).val := by
  unfold DotDims.rhsIdx
  rw [dif_neg (show ¬(0 : Fin S512x512.rank) ∈ dot_S2048x512_S512x512_S2048x512_1_1_0_0_n_n.rhsBatch by decide), dif_pos (show (0 : Fin S512x512.rank) ∈ dot_S2048x512_S512x512_S2048x512_1_1_0_0_n_n.rhsNonContracting by decide)]
  rfl
/-- … and at the contracted coordinate. -/
private theorem rhs_axis1 (i : S2048x512.Idx) (q : dot_S2048x512_S512x512_S2048x512_1_1_0_0_n_n.contr.Idx) :
    (dot_S2048x512_S512x512_S2048x512_1_1_0_0_n_n.rhsIdx i q 1).val = (q ⟨0, by decide⟩).val :=
  dot_S2048x512_S512x512_S2048x512_1_1_0_0_n_n.rhsIdx_val_of_single rfl i q

/-- The block product into the zero accumulator, at row `r` and column `s`: the sum over the 512 contracted positions of
    the left operand's row `r` against the right operand's row `s` (both operands are contracted along their second axis). -/
private theorem matmul_row_apply (L : FVec Ideal S2048x512 .bf16) (R : FVec Ideal S512x512 .bf16) (r : Fin 2048) (s : Fin 512) :
    matmul (F := Ideal) dot_S2048x512_S512x512_S2048x512_1_1_0_0_n_n none L R (constant (F := Ideal) S2048x512 .f32 0x00000000#32) (ix2 r s)
      = ∑ q : Fin 512, L (ix2 r q) * R (ix2 s q) := by
  simp only [matmul]
  rw [Ideal.matmul_constant_zero_apply, ← Equiv.sum_comp (contrEquiv1 dot_S2048x512_S512x512_S2048x512_1_1_0_0_n_n 512 rfl rfl).symm]
  refine Finset.sum_congr rfl fun k _ => ?_
  have hk := contrEquiv1_symm_val dot_S2048x512_S512x512_S2048x512_1_1_0_0_n_n 512 rfl rfl k
  have el : dot_S2048x512_S512x512_S2048x512_1_1_0_0_n_n.lhsIdx (ix2 r s) ((contrEquiv1 dot_S2048x512_S512x512_S2048x512_1_1_0_0_n_n 512 rfl rfl).symm k) = ix2 r k := funext fun a => Fin.ext (by
    match a with
    | ⟨0, _⟩ => exact lhs_axis0 _ _
    | ⟨1, _⟩ => exact (lhs_axis1 _ _).trans hk)
  have er : dot_S2048x512_S512x512_S2048x512_1_1_0_0_n_n.rhsIdx (ix2 r s) ((contrEquiv1 dot_S2048x512_S512x512_S2048x512_1_1_0_0_n_n 512 rfl rfl).symm k) = ix2 s k := funext fun a => Fin.ext (by
    match a with
    | ⟨0, _⟩ => exact rhs_axis0 _ _
    | ⟨1, _⟩ => exact (rhs_axis1 _ _).trans hk)
  rw [el, er]

/-- A `[1, 1]` array broadcast to `[a, b]` reads its one entry everywhere. -/
private theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- One column block's contribution: the running entry plus the product of a row of 512 activation levels with a
    row of 512 weight levels. -/
theorem pay2_apply (x0 : FVec Ideal S1x2048x512 .bf16) (x1 : FVec Ideal S512x512 .bf16) (a : FVec Ideal S2048x512 .f32)
    (r : Fin 2048) (s : Fin 512) :
    k2_pay2 (F := Ideal) x0 x1 a (ix2 r s) = a (ix2 r s) + ∑ q : Fin 512, x0 (ix3 (0 : Fin 1) r q) * x1 (ix2 s q) := by
  unfold k2_pay2
  refine (addf_apply _ _ _).trans ?_
  refine congrArg₂ (· + ·) ?_ ?_
  · exact congrFun (shapeCast_self a _) _
  · refine (matmul_row_apply _ _ r s).trans ?_
    refine Finset.sum_congr rfl fun q _ => ?_
    refine congrArg₂ (· * ·) ?_ ?_
    · exact shapeCast_1ab_ab_apply x0 _ r q
    · exact congrFun (shapeCast_self x1 _) _

/-- The closing step: the entry times the chunk's step, plus the bias entry of its column. -/
theorem pay3_apply (a : FVec Ideal S2048x512 .f32) (x2 : FVec Ideal S1x1x1 .f32) (x3 : FVec Ideal S1x512 .f32)
    (r : Fin 2048) (s : Fin 512) :
    k2_pay3 (F := Ideal) a x2 x3 (ix2 r s) = a (ix2 r s) * x2 (ix3 (0 : Fin 1) (0 : Fin 1) (0 : Fin 1)) + x3 (ix2 (0 : Fin 1) s) := by
  unfold k2_pay3
  refine (addf_apply _ _ _).trans ?_
  refine congrArg₂ (· + ·) ?_ ?_
  · refine (mulf_apply _ _ _).trans ?_
    refine congrArg₂ (· * ·) ?_ ?_
    · exact congrFun (shapeCast_self a _) _
    · refine (broadcastTo_11_ab_apply _ _ r s).trans ?_
      exact shapeCast_1ab_ab_apply x2 _ (0 : Fin 1) (0 : Fin 1)
  · refine (broadcastTo_1b_ab_apply _ _ r s).trans ?_
    exact congrFun (shapeCast_self x3 _) _

end Cert.KernelIdeal.Product

end
-- ==== Proof.Product.lean ====
/-
  The third launch: the contraction of the activation levels with the weight levels.

  Its grid is 4 row tiles × 32 column tiles × 8 column blocks of the contracted axis. The output block of a
  (row tile, column tile) is carried through its eight points: zeroed and given the first block product at the
  first, added to at the next six, and at the eighth added to, scaled by the chunk's combined step and given the
  bias row — only then is it written back. So entry (r, s) of the block after column block k is the sum of the
  block products up to k (induction on the point), and the array the launch leaves is `MM3` of what it finds.
-/
import proofs.«414508_j80762565034003_3_alg».proof.Proof.Gen.KernelIdeal.Frame
import proofs.«414508_j80762565034003_3_alg».proof.Proof.Spec
import Idealize.ShloMosaic.Lib.Pipeline.Value
import Idealize.ShloMosaic.Lib.ValueIdx
import proofs.«414508_j80762565034003_3_alg».proof.Proof.ProductPieces

noncomputable section

namespace Cert.KernelIdeal.Product

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! ## The grid

Point `t` of the 4 × 32 × 8 grid is row tile `t / 256`, column tile `t / 8 % 32` and column block `t % 8` of the
contraction; a column tile's chunk is a quarter of 32. Decided once over the 1024 points. -/

theorem idx_facts2 : ∀ t : Fin cfg2.N,
    win2_0.index t (0 : Fin 3) = t.val / 8 % 32 / 8 ∧ win2_0.index t (1 : Fin 3) = t.val / 256 ∧ win2_0.index t (2 : Fin 3) = t.val % 8
    ∧ win2_1.index t (0 : Fin 2) = t.val / 8 % 32 ∧ win2_1.index t (1 : Fin 2) = t.val % 8
    ∧ win2_2.index t (0 : Fin 3) = t.val / 8 % 32 / 8 ∧ win2_2.index t (1 : Fin 3) = 0 ∧ win2_2.index t (2 : Fin 3) = 0
    ∧ win2_3.index t (0 : Fin 2) = 0 ∧ win2_3.index t (1 : Fin 2) = t.val / 8 % 32
    ∧ win2_4.index t (0 : Fin 2) = t.val / 256 ∧ win2_4.index t (1 : Fin 2) = t.val / 8 % 32 :=
  (by decide +kernel : ∀ t : Fin grid2.N, _)

/-! ## The blocks and the arrays, by their literal types -/

/-- the activation-level block of point `t` -/
abbrev xqblk (c : Dev nD) (t : Fin cfg2.N) : FVec Ideal S1x2048x512 .bf16 := iblk2 V c 0 t
/-- the weight-level block of point `t` -/
abbrev qwblk (c : Dev nD) (t : Fin cfg2.N) : FVec Ideal S512x512 .bf16 := iblk2 V c 1 t
/-- the chunk's combined step at point `t` -/
abbrev scblk (c : Dev nD) (t : Fin cfg2.N) : FVec Ideal S1x1x1 .f32 := iblk2 V c 2 t
/-- the bias row of point `t`'s column tile -/
abbrev bsblk (c : Dev nD) (t : Fin cfg2.N) : FVec Ideal S1x512 .f32 := iblk2 V c 3 t
/-- the output block after point `n` -/
abbrev accAfter (c : Dev nD) (n : ℕ) (hn : n < cfg2.N) : FVec Ideal S2048x512 .f32 := outsAt2 V c n hn
abbrev xqarr (c : Dev nD) : Cert.Spec.Sxq.Idx → EReal := V c main_v7
abbrev qwarr (c : Dev nD) : Cert.Spec.Sw.Idx → EReal := V c main_v4
abbrev scarr (c : Dev nD) : Cert.Spec.Sc3.Idx → EReal := V c main_v1
abbrev bsarr (c : Dev nD) : Cert.Spec.Sb2.Idx → EReal := V c main_v8

/-- An entry of the activation-level block is the array's entry at chunk, row and column offset by the tile. -/
theorem xqblk_apply (c : Dev nD) (t : Fin cfg2.N) (y : S1x2048x512.Idx) (ci : Fin 4) (ri : Fin 8192) (qi : Fin 4096)
    (h0 : ci.val = t.val / 8 % 32 / 8) (h1 : ri.val = t.val / 256 * 2048 + (y 1).val) (h2 : qi.val = t.val % 8 * 512 + (y 2).val) :
    xqblk V c t y = xqarr V c (ix3 ci ri qi) := by
  show V c main_v7 (((cfg2.win 0).blk t).view.emb y) = V c main_v7 (ix3 ci ri qi)
  refine congrArg (V c main_v7) ?_
  obtain ⟨e0, e1, e2, -⟩ := idx_facts2 t
  funext a; apply Fin.ext
  match a with
  | ⟨0, _⟩ => show win2_0.index t (0 : Fin 3) * 1 + 1 * (y 0).val = ci.val; have hy : (y 0).val < 1 := (y 0).isLt; omega
  | ⟨1, _⟩ => show win2_0.index t (1 : Fin 3) * 2048 + 1 * (y 1).val = ri.val; omega
  | ⟨2, _⟩ => show win2_0.index t (2 : Fin 3) * 512 + 1 * (y 2).val = qi.val; omega

/-- An entry of the weight-level block is the array's entry at output feature and column offset by the tile. -/
theorem qwblk_apply (c : Dev nD) (t : Fin cfg2.N) (y : S512x512.Idx) (ni : Fin 16384) (qi : Fin 4096)
    (h0 : ni.val = t.val / 8 % 32 * 512 + (y 0).val) (h1 : qi.val = t.val % 8 * 512 + (y 1).val) :
    qwblk V c t y = qwarr V c (ix2 ni qi) := by
  show V c main_v4 (((cfg2.win 1).blk t).view.emb y) = V c main_v4 (ix2 ni qi)
  refine congrArg (V c main_v4) ?_
  obtain ⟨-, -, -, e0, e1, -⟩ := idx_facts2 t
  funext a; apply Fin.ext
  match a with
  | ⟨0, _⟩ => show win2_1.index t (0 : Fin 2) * 512 + 1 * (y 0).val = ni.val; omega
  | ⟨1, _⟩ => show win2_1.index t (1 : Fin 2) * 512 + 1 * (y 1).val = qi.val; omega

/-- The step block's one entry is the chunk's entry of the step array. -/
theorem scblk_apply (c : Dev nD) (t : Fin cfg2.N) (y : S1x1x1.Idx) (ci : Fin 4) (h0 : ci.val = t.val / 8 % 32 / 8) :
    scblk V c t y = scarr V c (ix3 ci (0 : Fin 1) (0 : Fin 1)) := by
  show V c main_v1 (((cfg2.win 2).blk t).view.emb y) = V c main_v1 (ix3 ci (0 : Fin 1) (0 : Fin 1))
  refine congrArg (V c main_v1) ?_
  obtain ⟨-, -, -, -, -, e0, e1, e2, -⟩ := idx_facts2 t
  funext a; apply Fin.ext
  match a with
  | ⟨0, _⟩ => show win2_2.index t (0 : Fin 3) * 1 + 1 * (y 0).val = ci.val; have hy : (y 0).val < 1 := (y 0).isLt; omega
  | ⟨1, _⟩ => show win2_2.index t (1 : Fin 3) * 1 + 1 * (y 1).val = 0; have hy : (y 1).val < 1 := (y 1).isLt; omega
  | ⟨2, _⟩ => show win2_2.index t (2 : Fin 3) * 1 + 1 * (y 2).val = 0; have hy : (y 2).val < 1 := (y 2).isLt; omega

/-- An entry of the bias block is the bias array's entry at the output feature offset by the tile. -/
theorem bsblk_apply (c : Dev nD) (t : Fin cfg2.N) (y : S1x512.Idx) (ni : Fin 16384)
    (h0 : ni.val = t.val / 8 % 32 * 512 + (y 1).val) :
    bsblk V c t y = bsarr V c (ix2 (0 : Fin 1) ni) := by
  show V c main_v8 (((cfg2.win 3).blk t).view.emb y) = V c main_v8 (ix2 (0 : Fin 1) ni)
  refine congrArg (V c main_v8) ?_
  obtain ⟨-, -, -, -, -, -, -, -, e0, e1, -⟩ := idx_facts2 t
  funext a; apply Fin.ext
  match a with
  | ⟨0, _⟩ => show win2_3.index t (0 : Fin 2) * 1 + 1 * (y 0).val = 0; have hy : (y 0).val < 1 := (y 0).isLt; omega
  | ⟨1, _⟩ => show win2_3.index t (1 : Fin 2) * 512 + 1 * (y 1).val = ni.val; omega

/-! ## What the output block holds after each point, by the point's place in the contraction -/

theorem acc_first (c : Dev nD) (t : Fin cfg2.N) (h0 : t.val % 8 = 0) :
    accAfter V c t.val t.isLt = k2_pay2 (xqblk V c t) (qwblk V c t) (k2_pay1 (F := Ideal)) := by
  have h1 : ¬t.val % 8 = 7 := by omega
  exact (outsAt2_A V c t h0 h1).trans
    (out2_A_4_eq c (grid2.coords t) (ms2_0 t) (hs2_0 t) (ms2_1 t) (hs2_1 t) (ms2_2 t) (hs2_2 t) (ms2_3 t) (hs2_3 t) (ms2_4 t) (hs2_4 t)
      ((hcond2_0 t).mpr h0) (fun h => h1 ((hcond2_1 t).mp h)) (iblk2 V c 0 t) (iblk2 V c 1 t) (iblk2 V c 2 t) (iblk2 V c 3 t))

theorem acc_middle (c : Dev nD) (t : Fin cfg2.N) (h0 : ¬t.val % 8 = 0) (h1 : ¬t.val % 8 = 7) :
    accAfter V c t.val t.isLt
      = k2_pay2 (xqblk V c t) (qwblk V c t) (accAfter V c (t.val - 1) (Nat.lt_of_le_of_lt (Nat.sub_le _ _) t.isLt)) :=
  (outsAt2_B V c t h0 h1).trans
    (out2_B_4_eq c (grid2.coords t) (ms2_0 t) (hs2_0 t) (ms2_1 t) (hs2_1 t) (ms2_2 t) (hs2_2 t) (ms2_3 t) (hs2_3 t) (ms2_4 t) (hs2_4 t)
      (fun h => h0 ((hcond2_0 t).mp h)) (fun h => h1 ((hcond2_1 t).mp h)) (iblk2 V c 0 t) (iblk2 V c 1 t) (iblk2 V c 2 t) (iblk2 V c 3 t)
      (outsAt2 V c (t.val - 1) (Nat.lt_of_le_of_lt (Nat.sub_le _ _) t.isLt)))

theorem acc_last (c : Dev nD) (t : Fin cfg2.N) (h1 : t.val % 8 = 7) :
    accAfter V c t.val t.isLt
      = k2_pay3 (k2_pay2 (xqblk V c t) (qwblk V c t) (accAfter V c (t.val - 1) (Nat.lt_of_le_of_lt (Nat.sub_le _ _) t.isLt)))
          (scblk V c t) (bsblk V c t) := by
  have h0 : ¬t.val % 8 = 0 := by omega
  exact (outsAt2_C V c t h0 h1).trans
    (out2_C_4_eq c (grid2.coords t) (ms2_0 t) (hs2_0 t) (ms2_1 t) (hs2_1 t) (ms2_2 t) (hs2_2 t) (ms2_3 t) (hs2_3 t) (ms2_4 t) (hs2_4 t)
      (fun h => h0 ((hcond2_0 t).mp h)) ((hcond2_1 t).mpr h1) (iblk2 V c 0 t) (iblk2 V c 1 t) (iblk2 V c 2 t) (iblk2 V c 3 t)
      (outsAt2 V c (t.val - 1) (Nat.lt_of_le_of_lt (Nat.sub_le _ _) t.isLt)))

/-! ## The contraction, one column block at a time -/

/-- Column block `k`'s contribution to the entry at row `ri`, output feature `ni` (chunk `ci`): the product of the
    row of 512 activation levels with the row of 512 weight levels; nothing past the eighth block. -/
def blockTerm (xq : Cert.Spec.Sxq.Idx → EReal) (qw : Cert.Spec.Sw.Idx → EReal) (ci : Fin 4) (ri : Fin 8192) (ni : Fin 16384) (k : ℕ) : EReal :=
  if h : k < 8 then ∑ q : Fin 512, xq (ix3 ci ri (Cert.Spec.col ⟨k, h⟩ q)) * qw (ix2 ni (Cert.Spec.col ⟨k, h⟩ q)) else 0

/-- One point's accumulation at an entry: the running entry plus the point's column block's contribution. -/
theorem step_apply (c : Dev nD) (t : Fin cfg2.N) (a : FVec Ideal S2048x512 .f32) (r : Fin 2048) (s : Fin 512)
    (ci : Fin 4) (ri : Fin 8192) (ni : Fin 16384)
    (h0 : ci.val = t.val / 8 % 32 / 8) (h1 : ri.val = t.val / 256 * 2048 + r.val) (h2 : ni.val = t.val / 8 % 32 * 512 + s.val) :
    k2_pay2 (xqblk V c t) (qwblk V c t) a (ix2 r s)
      = a (ix2 r s) + blockTerm (xqarr V c) (qwarr V c) ci ri ni (t.val % 8) := by
  refine (pay2_apply (xqblk V c t) (qwblk V c t) a r s).trans ?_
  refine congrArg (a (ix2 r s) + ·) ?_
  have hk : t.val % 8 < 8 := Nat.mod_lt _ (by norm_num)
  unfold blockTerm
  rw [dif_pos hk]
  refine Finset.sum_congr rfl fun q _ => ?_
  rw [xqblk_apply V c t (ix3 (0 : Fin 1) r q) ci ri (Cert.Spec.col ⟨t.val % 8, hk⟩ q) h0 h1 rfl,
    qwblk_apply V c t (ix2 s q) ni (Cert.Spec.col ⟨t.val % 8, hk⟩ q) h2 rfl]

/-- Before the last column block the output block holds, entry by entry, the contributions of the column blocks so far. -/
theorem acc_eq (c : Dev nD) : ∀ (n : ℕ) (hn : n < cfg2.N), n % 8 ≠ 7 →
    ∀ (r : Fin 2048) (s : Fin 512) (ci : Fin 4) (ri : Fin 8192) (ni : Fin 16384),
      ci.val = n / 8 % 32 / 8 → ri.val = n / 256 * 2048 + r.val → ni.val = n / 8 % 32 * 512 + s.val →
      accAfter V c n hn (ix2 r s) = ∑ k ∈ Finset.range (n % 8 + 1), blockTerm (xqarr V c) (qwarr V c) ci ri ni k := by
  intro n
  induction n with
  | zero =>
    intro hn _ r s ci ri ni h0 h1 h2
    refine (congrFun (acc_first V c ⟨0, hn⟩ rfl) (ix2 r s)).trans ?_
    refine (step_apply V c ⟨0, hn⟩ _ r s ci ri ni h0 h1 h2).trans ?_
    rw [pay1_apply, zero_add]
    show blockTerm _ _ ci ri ni 0 = ∑ k ∈ Finset.range 1, blockTerm _ _ ci ri ni k
    rw [Finset.sum_range_one]
  | succ n ih =>
    intro hn h7 r s ci ri ni h0 h1 h2
    by_cases h : (n + 1) % 8 = 0
    · refine (congrFun (acc_first V c ⟨n + 1, hn⟩ h) (ix2 r s)).trans ?_
      refine (step_apply V c ⟨n + 1, hn⟩ _ r s ci ri ni h0 h1 h2).trans ?_
      rw [pay1_apply, zero_add]
      show blockTerm _ _ ci ri ni ((n + 1) % 8) = ∑ k ∈ Finset.range ((n + 1) % 8 + 1), blockTerm _ _ ci ri ni k
      rw [h, Finset.sum_range_one]
    · have hN : n + 1 < 1024 := lt_of_lt_of_eq hn (show cfg2.N = 1024 from N_2)
      refine (congrFun (acc_middle V c ⟨n + 1, hn⟩ h h7) (ix2 r s)).trans ?_
      refine (step_apply V c ⟨n + 1, hn⟩ _ r s ci ri ni h0 h1 h2).trans ?_
      have hprev := ih (Nat.lt_of_succ_lt hn) (by omega) r s ci ri ni (by omega) (by omega) (by omega)
      show accAfter V c n _ (ix2 r s) + blockTerm _ _ ci ri ni ((n + 1) % 8) = _
      rw [hprev, show (n + 1) % 8 = n % 8 + 1 by omega]
      exact (Finset.sum_range_succ _ _).symm

/-- After the last column block: the whole contraction, times the chunk's step, plus the bias entry. -/
theorem acc_flush (c : Dev nD) (t : Fin cfg2.N) (h7 : t.val % 8 = 7) (r : Fin 2048) (s : Fin 512)
    (ci : Fin 4) (ri : Fin 8192) (ni : Fin 16384)
    (h0 : ci.val = t.val / 8 % 32 / 8) (h1 : ri.val = t.val / 256 * 2048 + r.val) (h2 : ni.val = t.val / 8 % 32 * 512 + s.val) :
    accAfter V c t.val t.isLt (ix2 r s)
      = (∑ k : Fin 8, ∑ q : Fin 512, xqarr V c (ix3 ci ri (Cert.Spec.col k q)) * qwarr V c (ix2 ni (Cert.Spec.col k q)))
          * scarr V c (ix3 ci (0 : Fin 1) (0 : Fin 1)) + bsarr V c (ix2 (0 : Fin 1) ni) := by
  have hN : t.val < 1024 := lt_of_lt_of_eq t.isLt (show cfg2.N = 1024 from N_2)
  refine (congrFun (acc_last V c t h7) (ix2 r s)).trans ?_
  refine (pay3_apply _ (scblk V c t) (bsblk V c t) r s).trans ?_
  rw [step_apply V c t _ r s ci ri ni h0 h1 h2,
    acc_eq V c (t.val - 1) (Nat.lt_of_le_of_lt (Nat.sub_le _ _) t.isLt) (by omega) r s ci ri ni (by omega) (by omega) (by omega),
    scblk_apply V c t (ix3 (0 : Fin 1) (0 : Fin 1) (0 : Fin 1)) ci h0, bsblk_apply V c t (ix2 (0 : Fin 1) s) ni h2,
    show (t.val - 1) % 8 + 1 = 7 by omega, h7, ← Finset.sum_range_succ, Finset.sum_range (fun k => blockTerm (xqarr V c) (qwarr V c) ci ri ni k)]
  refine congrArg (fun z => z * _ + _) (Finset.sum_congr rfl fun k _ => ?_)
  unfold blockTerm
  rw [dif_pos k.isLt]

/-! ## From the blocks to the array -/

/-- What a writing point writes back is its block of the product array. -/
theorem flushed_eq (c : Dev nD) (t : Fin cfg2.N) (hf : (cfg2.win 4).flush t = true) :
    (dat2 V c).flushed 4 t
      = ((cfg2.win 4).blk t).view.read (Elt Ideal) (Cert.Spec.MM3 (V c main_v7) (V c main_v4) (V c main_v1) (V c main_v8)) := by
  have h7 : t.val % 8 = 7 := (flush2_4 t).mp hf
  have hN : t.val < 1024 := lt_of_lt_of_eq t.isLt (show cfg2.N = 1024 from N_2)
  show (cfg2.win 4).cut (grid2.coords t) ((dat2 V c).after 4 t) = _
  rw [after2_4]
  funext y
  obtain ⟨r, s, rfl⟩ : ∃ (r : Fin 2048) (s : Fin 512), y = ix2 r s := ⟨y 0, y 1, eq_ix2 (n0 := 2048) (n1 := 512) y⟩
  obtain ⟨-, -, -, -, -, -, -, -, -, -, e0, e1⟩ := idx_facts2 t
  have hemb : ((cfg2.win 4).blk t).view.emb (ix2 r s)
      = ix2 (⟨t.val / 256 * 2048 + r.val, by omega⟩ : Fin 8192) (⟨t.val / 8 % 32 * 512 + s.val, by omega⟩ : Fin 16384) := by
    funext a; apply Fin.ext
    match a with
    | ⟨0, _⟩ => show win2_4.index t (0 : Fin 2) * 2048 + 1 * r.val = t.val / 256 * 2048 + r.val; omega
    | ⟨1, _⟩ => show win2_4.index t (1 : Fin 2) * 512 + 1 * s.val = t.val / 8 % 32 * 512 + s.val; omega
  show accAfter V c t.val t.isLt (ix2 r s) = Cert.Spec.MM3 (V c main_v7) (V c main_v4) (V c main_v1) (V c main_v8) (((cfg2.win 4).blk t).view.emb (ix2 r s))
  rw [hemb]
  refine (acc_flush V c t h7 r s ⟨t.val / 8 % 32 / 8, by omega⟩ ⟨t.val / 256 * 2048 + r.val, by omega⟩ ⟨t.val / 8 % 32 * 512 + s.val, by omega⟩ rfl rfl rfl).trans ?_
  have hch : Cert.Spec.chunk (⟨t.val / 8 % 32 * 512 + s.val, by omega⟩ : Fin 16384) = (⟨t.val / 8 % 32 / 8, by omega⟩ : Fin 4) :=
    Fin.ext (by show (t.val / 8 % 32 * 512 + s.val) / 4096 = t.val / 8 % 32 / 8; omega)
  unfold Cert.Spec.MM3
  show _ = (∑ k : Fin 8, ∑ q : Fin 512, xqarr V c (ix3 (Cert.Spec.chunk ⟨t.val / 8 % 32 * 512 + s.val, _⟩) ⟨t.val / 256 * 2048 + r.val, _⟩ (Cert.Spec.col k q))
        * qwarr V c (ix2 ⟨t.val / 8 % 32 * 512 + s.val, _⟩ (Cert.Spec.col k q)))
      * scarr V c (ix3 (Cert.Spec.chunk ⟨t.val / 8 % 32 * 512 + s.val, _⟩) (0 : Fin 1) (0 : Fin 1))
      + bsarr V c (ix2 (0 : Fin 1) ⟨t.val / 8 % 32 * 512 + s.val, _⟩)
  rw [hch]

/-- An index of the array is in point `t`'s block iff each coordinate is in the block's range on its axis. -/
theorem mem_blk4 (t : Fin cfg2.N) (i : S8192x16384.Idx) :
    i ∈ ((cfg2.win 4).blk t).view.set ↔ ∀ a : Fin 2, win2_4.index t a * S2048x512.size a ≤ (i a).val ∧ (i a).val < win2_4.index t a * S2048x512.size a + S2048x512.size a := by
  show i ∈ ((View.whole main_v9).slice (win2_4.rect t)).set ↔ _
  rw [View.set_slice_whole, Rect.mem_set_unit]
  exact Iff.rfl

/-- Every entry of the result lies in the block of the last column block's point of its row tile and column tile. -/
theorem cover4 (i : S8192x16384.Idx) : ∃ t : Fin cfg2.N, (cfg2.win 4).flush t = true ∧ i ∈ ((cfg2.win 4).blk t).view.set := by
  have hi0 : (i 0).val < 8192 := (i 0).isLt
  have hi1 : (i 1).val < 16384 := (i 1).isLt
  have htv : (i 0).val / 2048 * 256 + (i 1).val / 512 * 8 + 7 < cfg2.N := by rw [show cfg2.N = 1024 from N_2]; omega
  refine ⟨⟨(i 0).val / 2048 * 256 + (i 1).val / 512 * 8 + 7, htv⟩, (flush2_4 _).mpr (by show ((i 0).val / 2048 * 256 + (i 1).val / 512 * 8 + 7) % 8 = 7; omega), ?_⟩
  rw [mem_blk4]
  obtain ⟨-, -, -, -, -, -, -, -, -, -, e0, e1⟩ := idx_facts2 ⟨(i 0).val / 2048 * 256 + (i 1).val / 512 * 8 + 7, htv⟩
  intro a
  match a with
  | ⟨0, _⟩ =>
    show win2_4.index _ (0 : Fin 2) * 2048 ≤ (i 0).val ∧ (i 0).val < win2_4.index _ (0 : Fin 2) * 2048 + 2048
    rw [e0]; show ((i 0).val / 2048 * 256 + (i 1).val / 512 * 8 + 7) / 256 * 2048 ≤ (i 0).val ∧ (i 0).val < ((i 0).val / 2048 * 256 + (i 1).val / 512 * 8 + 7) / 256 * 2048 + 2048; omega
  | ⟨1, _⟩ =>
    show win2_4.index _ (1 : Fin 2) * 512 ≤ (i 1).val ∧ (i 1).val < win2_4.index _ (1 : Fin 2) * 512 + 512
    rw [e1]; show ((i 0).val / 2048 * 256 + (i 1).val / 512 * 8 + 7) / 8 % 32 * 512 ≤ (i 1).val ∧ (i 1).val < ((i 0).val / 2048 * 256 + (i 1).val / 512 * 8 + 7) / 8 % 32 * 512 + 512; omega

/-- The result array after the third launch: the contraction of the two level arrays over the eight column
    blocks, times the chunk's combined step, plus the bias, whatever arrays the launch finds. -/
theorem final2 (c : Dev nD) :
    (dat2 (F := Ideal) V c).arrAt 4 cfg2.N = Cert.Spec.MM3 (V c main_v7) (V c main_v4) (V c main_v1) (V c main_v8) :=
  (dat2 V c).arrAt_eq_of_cover 4 _ (fun t hf => flushed_eq V c t hf) cover4

end Cert.KernelIdeal.Product

end
-- ==== Proof.Boundary.lean ====
/-
  What each launch finds in the arrays it reads.

  The host lines between the launches only insert unit axes into arguments ([4, 4096] → [4, 1, 4096], [4] → [4, 1, 1],
  [16384] → [1, 16384]) and multiply the two per-chunk steps entry by entry; a launch changes no array but its output,
  and no host line writes an array a later launch reads other than the one it makes. So every array a launch reads is
  either an argument as launched, a re-laid argument, or an earlier launch's output.
-/
import proofs.«414508_j80762565034003_3_alg».proof.Proof.Gen.KernelIdeal.Frame
import proofs.«414508_j80762565034003_3_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Boundary

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- No operation of a host stretch writes the buffer read. -/
local macro "unwritten" : tactic => `(tactic| (
  refine StableHlo.after_of_forall_not_mem _ _ (List.forall_iff_forall_mem.mp ?_)
  simp only [hostOps0, hostOps1, hostOps2, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- An `[a]` array re-laid as `[a, 1, 1]` reads, at `(i, u, v)`, the operand at `i`. -/
private theorem shapeCast_a_a11_apply {α : Type} {a : ℕ} (x : (⟨1, ![a]⟩ : Shape).Idx → α)
    (h : (⟨1, ![a]⟩ : Shape).ShapeCasts ⟨3, ![a, 1, 1]⟩) (i : Fin a) (u v : Fin 1) :
    shapeCast ⟨3, ![a, 1, 1]⟩ x h (ix3 i u v) = x (ix1 i) :=
  shapeCast_apply x h _ _ (by
    have hu : u.val = 0 := by omega
    have hv : v.val = 0 := by omega
    rw [Shape.rowMajor_val_three, Shape.rowMajor_val_one]
    show i.val = (i.val * 1 + u.val) * 1 + v.val
    omega)

/-- An `[a, b]` array re-laid as `[a, 1, b]` reads, at `(i, u, j)`, the operand at `(i, j)`. -/
private theorem shapeCast_ab_a1b_apply {α : Type} {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-! The re-laid arrays read at an index. -/

private theorem relaySm_eq (x : Cert.Spec.Ssm.Idx → EReal) :
    shapeCast S4x1x4096 x shapeCasts_S4x4096_S4x1x4096 = Cert.Spec.relaySm x := by
  funext i
  obtain ⟨p, u, q, rfl⟩ : ∃ (p : Fin 4) (u : Fin 1) (q : Fin 4096), i = ix3 p u q := ⟨i 0, i 1, i 2, eq_ix3 i⟩
  exact shapeCast_ab_a1b_apply x _ p u q

private theorem relayStep_eq (x : Cert.Spec.Sc.Idx → EReal) :
    shapeCast S4x1x1 x shapeCasts_S4_S4x1x1 = Cert.Spec.relayStep x := by
  funext i
  obtain ⟨p, u, v, rfl⟩ : ∃ (p : Fin 4) (u : Fin 1) (v : Fin 1), i = ix3 p u v := ⟨i 0, i 1, i 2, eq_ix3 i⟩
  exact shapeCast_a_a11_apply x _ p u v

private theorem relayProd_eq (x y : Cert.Spec.Sc.Idx → EReal) :
    shapeCast S4x1x1 (mulf (F := Ideal) (s := S4) (φ := .f32) x y) shapeCasts_S4_S4x1x1 = Cert.Spec.relayProd x y := by
  funext i
  obtain ⟨p, u, v, rfl⟩ : ∃ (p : Fin 4) (u : Fin 1) (v : Fin 1), i = ix3 p u v := ⟨i 0, i 1, i 2, eq_ix3 i⟩
  exact shapeCast_a_a11_apply _ _ p u v

private theorem relayBias_eq (x : Cert.Spec.Sb.Idx → EReal) :
    shapeCast S1x16384 x shapeCasts_S16384_S1x16384 = Cert.Spec.relayBias x := by
  funext i
  obtain ⟨u, q, rfl⟩ : ∃ (u : Fin 1) (q : Fin 16384), i = ix2 u q := ⟨i 0, i 1, eq_ix2 i⟩
  exact shapeCast_a_1a_apply x _ u q

/-- The smoothing rows are as launched when the first launch ends. -/
private theorem W2_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := by unwritten
    _ = m ((c : Thread nD τ).loc main_arg3) := rfl

/-- The activations' steps are as launched when the first launch ends. -/
private theorem W2_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := by unwritten
    _ = m ((c : Thread nD τ).loc main_arg4) := rfl

/-- The bias is as launched when the second launch ends. -/
private theorem W4_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := by unwritten
    _ = W1 m ρ c (Proc.devRef .tc main_arg2) := W2_of_ne m ρ c main_arg2 (by decide)
    _ = W0 m ρ c (Proc.devRef .tc main_arg2) := by unwritten
    _ = m ((c : Thread nD τ).loc main_arg2) := rfl

/-! What each launch finds in the arrays it reads, traced back through the host lines and the earlier launches. -/

theorem V1_arg1 (c : Dev nD) : V1 m ρ c main_arg1 = m ((c : Thread nD τ).loc main_arg1) :=
  calc W1 m ρ c (Proc.devRef .tc main_arg1)
    _ = W0 m ρ c (Proc.devRef .tc main_arg1) := by unwritten
    _ = m ((c : Thread nD τ).loc main_arg1) := rfl
theorem V1_v2 (c : Dev nD) : V1 m ρ c main_v2 = Cert.Spec.relaySm (m ((c : Thread nD τ).loc main_arg3)) := by
  have e : V1 m ρ c main_v2
      = shapeCast S4x1x4096 (W0 m ρ c (Proc.devRef .tc main_arg3)) shapeCasts_S4x4096_S4x1x4096 := by
    show StableHlo.after hostOps0 _ (Proc.devRef .tc main_v2) = _
    after_results; rfl
  exact e.trans (relaySm_eq (m ((c : Thread nD τ).loc main_arg3)))
theorem V1_v3 (c : Dev nD) : V1 m ρ c main_v3 = Cert.Spec.relayStep (m ((c : Thread nD τ).loc main_arg5)) := by
  have e : V1 m ρ c main_v3
      = shapeCast S4x1x1 (W0 m ρ c (Proc.devRef .tc main_arg5)) shapeCasts_S4_S4x1x1 := by
    show StableHlo.after hostOps0 _ (Proc.devRef .tc main_v3) = _
    after_results; rfl
  exact e.trans (relayStep_eq (m ((c : Thread nD τ).loc main_arg5)))

theorem V3_arg0 (c : Dev nD) : V3 m ρ c main_arg0 = m ((c : Thread nD τ).loc main_arg0) :=
  calc W3 m ρ c (Proc.devRef .tc main_arg0)
    _ = W2 m ρ c (Proc.devRef .tc main_arg0) := by unwritten
    _ = W1 m ρ c (Proc.devRef .tc main_arg0) := W2_of_ne m ρ c main_arg0 (by decide)
    _ = W0 m ρ c (Proc.devRef .tc main_arg0) := by unwritten
    _ = m ((c : Thread nD τ).loc main_arg0) := rfl
theorem V3_v5 (c : Dev nD) : V3 m ρ c main_v5 = Cert.Spec.relaySm (m ((c : Thread nD τ).loc main_arg3)) := by
  have e : V3 m ρ c main_v5
      = shapeCast S4x1x4096 (W2 m ρ c (Proc.devRef .tc main_arg3)) shapeCasts_S4x4096_S4x1x4096 := by
    show StableHlo.after hostOps1 _ (Proc.devRef .tc main_v5) = _
    after_results; rfl
  rw [W2_arg3] at e
  exact e.trans (relaySm_eq (m ((c : Thread nD τ).loc main_arg3)))
theorem V3_v6 (c : Dev nD) : V3 m ρ c main_v6 = Cert.Spec.relayStep (m ((c : Thread nD τ).loc main_arg4)) := by
  have e : V3 m ρ c main_v6
      = shapeCast S4x1x1 (W2 m ρ c (Proc.devRef .tc main_arg4)) shapeCasts_S4_S4x1x1 := by
    show StableHlo.after hostOps1 _ (Proc.devRef .tc main_v6) = _
    after_results; rfl
  rw [W2_arg4] at e
  exact e.trans (relayStep_eq (m ((c : Thread nD τ).loc main_arg4)))

theorem V5_v7 (c : Dev nD) : V5 m ρ c main_v7 = (dat1 (V3 m ρ) c).arrAt 3 cfg1.N :=
  calc W5 m ρ c (Proc.devRef .tc main_v7)
    _ = W4 m ρ c (Proc.devRef .tc main_v7) := by unwritten
    _ = (dat1 (V3 m ρ) c).arrAt 3 cfg1.N := W4_arr m ρ c 3
theorem V5_v4 (c : Dev nD) : V5 m ρ c main_v4 = (dat0 (V1 m ρ) c).arrAt 3 cfg0.N :=
  calc W5 m ρ c (Proc.devRef .tc main_v4)
    _ = W4 m ρ c (Proc.devRef .tc main_v4) := by unwritten
    _ = W3 m ρ c (Proc.devRef .tc main_v4) := W4_of_ne m ρ c main_v4 (by decide)
    _ = W2 m ρ c (Proc.devRef .tc main_v4) := by unwritten
    _ = (dat0 (V1 m ρ) c).arrAt 3 cfg0.N := W2_arr m ρ c 3
theorem V5_v1 (c : Dev nD) : V5 m ρ c main_v1 = Cert.Spec.relayProd (m ((c : Thread nD τ).loc main_arg4)) (m ((c : Thread nD τ).loc main_arg5)) := by
  have e : W1 m ρ c (Proc.devRef .tc main_v1)
      = shapeCast S4x1x1 (mulf (F := Ideal) (s := S4) (φ := .f32) (W0 m ρ c (Proc.devRef .tc main_arg4)) (W0 m ρ c (Proc.devRef .tc main_arg5)))
          shapeCasts_S4_S4x1x1 := by
    show StableHlo.after hostOps0 _ (Proc.devRef .tc main_v1) = _
    after_results; rfl
  calc W5 m ρ c (Proc.devRef .tc main_v1)
    _ = W4 m ρ c (Proc.devRef .tc main_v1) := by unwritten
    _ = W3 m ρ c (Proc.devRef .tc main_v1) := W4_of_ne m ρ c main_v1 (by decide)
    _ = W2 m ρ c (Proc.devRef .tc main_v1) := by unwritten
    _ = W1 m ρ c (Proc.devRef .tc main_v1) := W2_of_ne m ρ c main_v1 (by decide)
    _ = _ := e
    _ = _ := relayProd_eq (m ((c : Thread nD τ).loc main_arg4)) (m ((c : Thread nD τ).loc main_arg5))
theorem V5_v8 (c : Dev nD) : V5 m ρ c main_v8 = Cert.Spec.relayBias (m ((c : Thread nD τ).loc main_arg2)) := by
  have e : V5 m ρ c main_v8
      = shapeCast S1x16384 (W4 m ρ c (Proc.devRef .tc main_arg2)) shapeCasts_S16384_S1x16384 := by
    show StableHlo.after hostOps2 _ (Proc.devRef .tc main_v8) = _
    after_results; rfl
  rw [W4_arg2] at e
  exact e.trans (relayBias_eq (m ((c : Thread nD τ).loc main_arg2)))

theorem W6_v9 (c : Dev nD) : W6 m ρ c (Proc.devRef .tc main_v9) = (dat2 (V5 m ρ) c).arrAt 4 cfg2.N :=
  W6_arr m ρ c 4

end Cert.KernelIdeal.Boundary

end
-- ==== Proof.KernelValue.lean ====
/-
  The kernel's result as a function of its arguments.

  The run of @main leaves the result buffer at the last boundary's contents; the third launch's output array is
  its function `MM3` of what it finds; what it finds are the first two launches' output arrays, their functions
  `QW3`, `XQ3` of what THEY find, and two re-laid arguments; composed, that is `Cert.Spec.K` of the six argument arrays.
-/
import proofs.«414508_j80762565034003_3_alg».proof.Proof.KernelRun
import proofs.«414508_j80762565034003_3_alg».proof.Proof.Weights
import proofs.«414508_j80762565034003_3_alg».proof.Proof.Activations
import proofs.«414508_j80762565034003_3_alg».proof.Proof.Product
import proofs.«414508_j80762565034003_3_alg».proof.Proof.Boundary
import proofs.«414508_j80762565034003_3_alg».proof.Proof.Spec

noncomputable section

namespace Cert.KernelIdeal.Result

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The result buffer's contents at the last boundary: the kernel's function of the launch memory's arguments. -/
theorem result (c : Dev nD) :
    W6 m ρ c (Proc.devRef .tc main_v9)
      = Cert.Spec.K (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  rw [Boundary.W6_v9, Product.final2, Boundary.V5_v7, Boundary.V5_v4, Boundary.V5_v1, Boundary.V5_v8,
    Activations.final1, Weights.final0, Boundary.V3_arg0, Boundary.V3_v5, Boundary.V3_v6,
    Boundary.V1_arg1, Boundary.V1_v2, Boundary.V1_v3]
  exact Cert.Spec.MM3_eq _ _ _ _ _ _

/-- Every weakly fair execution of the idealized kernel terminates with its result at `K` of the arguments and
    the arguments unchanged. -/
theorem run : θ_run defs (onTc (τ := τ) (main (F := Ideal))) ⟨m, fun _ => 0, ρ⟩ (fun r => ∀ c : Dev nD,
      r.2.mem ((c.tc : Thread nD τ).loc main_v9)
        = Cert.Spec.K (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result m ρ c), (h c).2⟩) (Cert.KernelIdeal.GenP.run_main m ρ)

end Cert.KernelIdeal.Result

end
-- ==== Proof.RefValue.lean ====
/-
  The reference's result, entry by entry: its host lines composed and read at an index give the contraction over the
  4096 input features of (weight level × weight step) × (activation level × activation step), plus the bias.
-/
import proofs.«414508_j80762565034003_3_alg».proof.Proof.Gen.ReferenceIdeal.Run
import proofs.«414508_j80762565034003_3_alg».proof.Proof.Gen.ReferenceIdeal.Read
import proofs.«414508_j80762565034003_3_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem
open Idealize.ShloMosaic.ValueIdx

/-- The position of an output feature inside its chunk: `n = chunk n * 4096 + off n`. -/
private abbrev off (n : Fin 16384) : Fin 4096 := ⟨n.val % 4096, Nat.mod_lt _ (by decide)⟩

/-- The re-scaled quantized weight, read in its `[4, 4096, 4096]` layout at chunk `chunk n`, row `off n`,
    column `k`: the level of `w (n, k)` times the chunk's weight step. The reshape `[16384, 4096] → [4, 4096, 4096]`
    sends `(c, o, k)` to row `c * 4096 + o`, which is `n`. -/
private theorem wq_apply (w : FVec Ideal S16384x4096 .f32) (sm : FVec Ideal S4x4096 .f32) (ws : FVec Ideal S4 .f32)
    (n : Fin 16384) (k : Fin 4096) :
    Read.val_main_v22 (F := Ideal) w sm ws (ix3 (Cert.Spec.chunk n) (off n) k)
      = Cert.Spec.wlev w sm ws n k * ws (ix1 (Cert.Spec.chunk n)) := by
  have e0 : Read.idx_main_v0 (ix3 (Cert.Spec.chunk n) (off n) k) = ix2 n k := by
    funext a
    match a with
    | ⟨0, _⟩ =>
      exact Fin.ext (by
        show ((n.val / 4096 * 4096 + n.val % 4096) * 4096 + k.val) / 4096 = n.val
        have := k.isLt; omega)
    | ⟨1, _⟩ =>
      exact Fin.ext (by
        show ((n.val / 4096 * 4096 + n.val % 4096) * 4096 + k.val) % 4096 = k.val
        have := k.isLt; omega)
  have e14 : Read.idx_main_v13 (Read.idx_main_v14 (ix3 (Cert.Spec.chunk n) (off n) k)) = ix2 (Cert.Spec.chunk n) k := by
    funext a; match a with | ⟨0, _⟩ => rfl | ⟨1, _⟩ => rfl
  have e17 : Read.idx_main_v16 (Read.idx_main_v17 (ix3 (Cert.Spec.chunk n) (off n) k)) = ix1 (Cert.Spec.chunk n) := by
    funext a; match a with | ⟨0, _⟩ => rfl
  rw [Read.val_main_v22_apply, Read.val_main_v20_apply, Read.val_main_v19_apply, Read.val_main_call2_v4_apply,
    Read.val_main_call2_v3_apply, Read.val_main_cst_2_apply, Read.val_main_call2_v2_apply, Read.val_main_call2_v1_apply,
    Read.val_main_call2_v0_apply, Read.val_main_cst_1_apply, Read.val_main_v18_apply, Read.val_main_v15_apply,
    Read.val_main_v0_apply, Read.val_main_v14_apply, Read.val_main_v13_apply, Read.val_main_v17_apply,
    Read.val_main_v16_apply, Read.val_main_v21_apply, Read.val_main_v16_apply, e0, e14, e17]
  rfl

/-- The re-scaled quantized activation, read in its `[4, 8192, 4096]` layout at chunk `c`, token `b`, column `k`:
    the level of `x (b, k)` in chunk `c` times the chunk's activation step. -/
private theorem xq_apply (x : FVec Ideal S8192x4096 .f32) (sm : FVec Ideal S4x4096 .f32) (is : FVec Ideal S4 .f32)
    (c : Fin 4) (b : Fin 8192) (k : Fin 4096) :
    Read.val_main_v12 (F := Ideal) x sm is (ix3 c b k)
      = Cert.Spec.xlev x sm is c b k * is (ix1 c) := by
  have e3 : Read.idx_main_v1 (Read.idx_main_v3 (ix3 c b k)) = ix2 b k := by
    funext a; match a with | ⟨0, _⟩ => rfl | ⟨1, _⟩ => rfl
  have e4 : Read.idx_main_v2 (Read.idx_main_v4 (ix3 c b k)) = ix2 c k := by
    funext a; match a with | ⟨0, _⟩ => rfl | ⟨1, _⟩ => rfl
  have e7 : Read.idx_main_v6 (Read.idx_main_v7 (ix3 c b k)) = ix1 c := by
    funext a; match a with | ⟨0, _⟩ => rfl
  rw [Read.val_main_v12_apply, Read.val_main_v10_apply, Read.val_main_v9_apply, Read.val_main_call0_v4_apply,
    Read.val_main_call0_v3_apply, Read.val_main_cst_0_apply, Read.val_main_call0_v2_apply, Read.val_main_call0_v1_apply,
    Read.val_main_call0_v0_apply, Read.val_main_cst_apply, Read.val_main_v8_apply, Read.val_main_v5_apply,
    Read.val_main_v3_apply, Read.val_main_v1_apply, Read.val_main_v4_apply, Read.val_main_v2_apply,
    Read.val_main_v7_apply, Read.val_main_v6_apply, Read.val_main_v11_apply, Read.val_main_v6_apply, e3, e4, e7]
  rfl

/-- The reference run's result term, at `Ideal`, is the function `R` of the six argument arrays: index by index,
    the contraction over the 4096 input features of (weight level × weight step) × (activation level × activation
    step), plus the bias. -/
theorem result_eq (x : FVec Ideal S8192x4096 .f32) (w : FVec Ideal S16384x4096 .f32) (bias : FVec Ideal S16384 .f32)
    (sm : FVec Ideal S4x4096 .f32) (is ws : FVec Ideal S4 .f32) :
    addf (shapeCast _ (transpose S8192x4x4096 [2, 0, 1] (Host.dotGeneral dot_S4x4096x4096_S4x8192x4096_S4x4096x8192_2_2_1_1_0_0 none (mulf (Host.roundeven (minimumf (broadcastInDim S4x4096x4096 ![] bcast_S_S4x4096x4096 (id (constant S_ .f32 0x42FE0000#32))) (maximumf (broadcastInDim S4x4096x4096 ![] bcast_S_S4x4096x4096 (id (constant S_ .f32 0xC2FE0000#32))) (Host.divf (mulf (shapeCast _ w shapeCasts_S16384x4096_S4x4096x4096) (broadcastInDim S4x4096x4096 ![0, 1, 2] bcast_S4x1x4096_S4x4096x4096_0_1_2 (broadcastInDim S4x1x4096 ![0, 2] bcast_S4x4096_S4x1x4096_0_2 sm))) (broadcastInDim S4x4096x4096 ![0, 1, 2] bcast_S4x1x1_S4x4096x4096_0_1_2 (broadcastInDim S4x1x1 ![0] bcast_S4_S4x1x1_0 ws)))))) (broadcastInDim S4x4096x4096 ![0, 1, 2] bcast_S4x1x1_S4x4096x4096_0_1_2 (broadcastInDim S4x1x1 ![0] bcast_S4_S4x1x1_0 ws))) (mulf (Host.roundeven (minimumf (broadcastInDim S4x8192x4096 ![] bcast_S_S4x8192x4096 (id (constant S_ .f32 0x42FE0000#32))) (maximumf (broadcastInDim S4x8192x4096 ![] bcast_S_S4x8192x4096 (id (constant S_ .f32 0xC2FE0000#32))) (Host.divf (Host.divf (broadcastInDim S4x8192x4096 ![0, 1, 2] bcast_S1x8192x4096_S4x8192x4096_0_1_2 (broadcastInDim S1x8192x4096 ![1, 2] bcast_S8192x4096_S1x8192x4096_1_2 x)) (broadcastInDim S4x8192x4096 ![0, 1, 2] bcast_S4x1x4096_S4x8192x4096_0_1_2 (broadcastInDim S4x1x4096 ![0, 2] bcast_S4x4096_S4x1x4096_0_2 sm))) (broadcastInDim S4x8192x4096 ![0, 1, 2] bcast_S4x1x1_S4x8192x4096_0_1_2 (broadcastInDim S4x1x1 ![0] bcast_S4_S4x1x1_0 is)))))) (broadcastInDim S4x8192x4096 ![0, 1, 2] bcast_S4x1x1_S4x8192x4096_0_1_2 (broadcastInDim S4x1x1 ![0] bcast_S4_S4x1x1_0 is)))) transposes_S4x4096x8192_S8192x4x4096_2_0_1) shapeCasts_S8192x4x4096_S8192x16384) (broadcastInDim S8192x16384 ![0, 1] bcast_S1x16384_S8192x16384_0_1 (broadcastInDim S1x16384 ![1] bcast_S16384_S1x16384_1 bias))
      = Cert.Spec.R x w bias sm is ws := by
  funext i
  obtain ⟨b, n, rfl⟩ : ∃ (b : Fin 8192) (n : Fin 16384), i = ix2 b n := ⟨i 0, i 1, eq_ix2 i⟩
  have e25 : Read.idx_main_v24 (Read.idx_main_v25 (ix2 b n)) = ix3 (Cert.Spec.chunk n) (off n) b := by
    funext a
    match a with
    | ⟨0, _⟩ =>
      exact Fin.ext (by
        show (b.val * 16384 + n.val) / 4096 % 4 = n.val / 4096
        have := n.isLt; omega)
    | ⟨1, _⟩ =>
      exact Fin.ext (by
        show (b.val * 16384 + n.val) % 4096 = n.val % 4096
        omega)
    | ⟨2, _⟩ =>
      exact Fin.ext (by
        show (b.val * 16384 + n.val) / 16384 = b.val
        have := n.isLt; omega)
  have el : ∀ k : Fin 4096, Read.lidx_main_v23 (ix3 (Cert.Spec.chunk n) (off n) b) k = ix3 (Cert.Spec.chunk n) (off n) k :=
    fun k => funext fun a => match a with | ⟨0, _⟩ => rfl | ⟨1, _⟩ => rfl | ⟨2, _⟩ => rfl
  have er : ∀ k : Fin 4096, Read.ridx_main_v23 (ix3 (Cert.Spec.chunk n) (off n) b) k = ix3 (Cert.Spec.chunk n) b k :=
    fun k => funext fun a => match a with | ⟨0, _⟩ => rfl | ⟨1, _⟩ => rfl | ⟨2, _⟩ => rfl
  have e27 : Read.idx_main_v26 (Read.idx_main_v27 (ix2 b n)) = ix1 n := by
    funext a; match a with | ⟨0, _⟩ => rfl
  refine (congrFun (Read.val_main_v28_eq (F := Ideal) x w bias sm is ws) (ix2 b n)).trans ?_
  rw [Read.val_main_v28_apply, Read.val_main_v25_apply, Read.val_main_v24_apply, e25, Read.val_main_v23_apply,
    Read.val_main_v27_apply, Read.val_main_v26_apply, e27]
  simp only [el, er, wq_apply, xq_apply]
  rfl

end Cert.ReferenceIdeal.RefValue

end
-- ==== Proof.Algebra.lean ====
/-
  The law that joins the two programs: a quantization level is a real number, and with finite steps the finished sum
  of level products times the product of the steps equals the sum of the products of the stepped levels — distributivity
  of a finite factor over a finite sum of reals, after the eight column blocks of 512 are read as the 4096 features.
-/
import proofs.«414508_j80762565034003_3_alg».proof.Proof.Spec
import Mathlib.Algebra.BigOperators.Fin
import Mathlib.Data.EReal.Operations

noncomputable section

namespace Cert.Spec

open Idealize.ShloMosaic Idealize.ShloMosaic.ValueIdx

/-- A bit pattern whose exponent field is not all ones denotes a real number. -/
private theorem ieee_real (e m : Nat) {w : Nat} (b : BitVec w) (h : (b.extractLsb' m e).toNat ≠ 2 ^ e - 1) :
    ∃ r : ℝ, Ideal.ieee e m b = (r : EReal) := by
  unfold Ideal.ieee
  simp only [if_neg h]
  split_ifs <;> exact ⟨_, rfl⟩

/-- The lower clip bound is a real number. -/
private theorem lo_real : ∃ r : ℝ, lo = (r : EReal) := ieee_real 8 23 (0xC2FE0000#32 : BitVec 32) (by decide)

/-- The upper clip bound is a real number. -/
private theorem hi_real : ∃ r : ℝ, hi = (r : EReal) := ieee_real 8 23 (0x42FE0000#32 : BitVec 32) (by decide)

/-- A quantization level is a real number: the clip puts it in [-127, 127] before the rounding. -/
theorem qlevel_real (v : EReal) : ∃ r : ℝ, qlevel v = (r : EReal) := by
  obtain ⟨l, hl⟩ := lo_real
  obtain ⟨u, hu⟩ := hi_real
  unfold qlevel
  rw [hl, hu]
  induction v using EReal.rec with
  | bot =>
    rw [max_eq_left bot_le, ← EReal.coe_strictMono.monotone.map_min]
    exact ⟨_, rfl⟩
  | coe r =>
    rw [← EReal.coe_strictMono.monotone.map_max, ← EReal.coe_strictMono.monotone.map_min]
    exact ⟨_, rfl⟩
  | top =>
    rw [max_eq_right le_top, min_eq_left le_top]
    exact ⟨_, rfl⟩

/-- The coercion of a finite sum of reals is the sum of the coercions. -/
private theorem coe_sum {ι : Type} (s : Finset ι) (f : ι → ℝ) :
    ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- The eight column blocks of 512 are the 4096 input features. -/
private theorem sum_col (f : Fin 4096 → ℝ) :
    ∑ j : Fin 4096, f j = ∑ k : Fin 8, ∑ q : Fin 512, f (col k q) := by
  rw [← Fintype.sum_prod_type' (f := fun k q => f (col k q))]
  refine (Fintype.sum_equiv (finProdFinEquiv (m := 8) (n := 512)) _ _ (fun x => ?_)).symm
  congr 1
  ext
  simp [finProdFinEquiv, col]
  ring

/-- With finite steps the kernel's function is the reference's: the levels are reals, so the finished sum of
    level products times `is c · ws c` distributes back over the sum, and the eight column blocks of 512 are the
    4096 input features. -/
theorem K_eq_R (x : Sx.Idx → EReal) (w : Sw.Idx → EReal) (bias : Sb.Idx → EReal) (sm : Ssm.Idx → EReal) (is ws : Sc.Idx → EReal)
    (his : ∀ c, ∃ r : ℝ, is c = (r : EReal)) (hws : ∀ c, ∃ r : ℝ, ws c = (r : EReal)) :
    K x w bias sm is ws = R x w bias sm is ws := by
  choose a ha using his
  choose b hb using hws
  have hW : ∀ n j, ∃ r : ℝ, wlev w sm ws n j = (r : EReal) := fun n j => qlevel_real _
  have hX : ∀ c t j, ∃ r : ℝ, xlev x sm is c t j = (r : EReal) := fun c t j => qlevel_real _
  choose W hW using hW
  choose X hX using hX
  funext i
  obtain ⟨p, n, rfl⟩ : ∃ (p : Fin 8192) (n : Fin 16384), i = ix2 p n := ⟨i 0, i 1, eq_ix2 i⟩
  show (∑ k : Fin 8, ∑ q : Fin 512, xlev x sm is (chunk n) p (col k q) * wlev w sm ws n (col k q))
        * (is (ix1 (chunk n)) * ws (ix1 (chunk n))) + bias (ix1 n)
      = (∑ j : Fin 4096, (wlev w sm ws n j * ws (ix1 (chunk n))) * (xlev x sm is (chunk n) p j * is (ix1 (chunk n))))
        + bias (ix1 n)
  congr 1
  simp only [hX, hW, ha, hb, ← EReal.coe_mul, ← coe_sum]
  congr 1
  rw [sum_col, Finset.sum_mul]
  refine Finset.sum_congr rfl fun k _ => ?_
  rw [Finset.sum_mul]
  refine Finset.sum_congr rfl fun q _ => ?_
  ring

end Cert.Spec

end
-- ==== Proof.Finite.lean ====
/-
  The precondition says every entry of every argument has absolute value below +∞; read for the two per-chunk steps,
  every entry of each is a real number.
-/
import proofs.«414508_j80762565034003_3_alg».proof.Pre_finite_inputs
import proofs.«414508_j80762565034003_3_alg».proof.Proof.Gen.Pre_finite_inputs
import Idealize.ShloMosaic.PureOps.Ideal
import Idealize.ShloMosaic.Lib.ReduceAll
import Idealize.ShloMosaic.Lib.ValueIdx
import Idealize.ShloMosaic.Lib.IdealHost

noncomputable section

namespace Cert.Finite

open Idealize.ShloMosaic Idealize.ShloMosaic.ValueIdx Cert.Pre_finite_inputs

/-- The rank-0 shape has one index. -/
private instance : Subsingleton S_.Idx := ⟨fun a b => funext fun d => d.elim0⟩

/-- An extended real whose absolute value is strictly below +∞ is a real number. -/
private theorem real_of_abs_lt (v : EReal)
    (h : Ideal.cmp .olt (max v (-v)) (Ideal.ofBits .f32 0x7F800000#32) = 1#1) : ∃ r : ℝ, v = (r : EReal) := by
  have htop : Ideal.ofBits .f32 0x7F800000#32 = ⊤ := by simp [Ideal.ofBits, Ideal.ieee]
  rw [htop] at h
  induction v using EReal.rec with
  | bot => simp [Ideal.cmp] at h
  | coe r => exact ⟨r, rfl⟩
  | top => simp [Ideal.cmp] at h

/-- If "every |entry| < +∞" holds of a four-entry array, every entry is a real number. -/
private theorem all_real (a : FVec Ideal S4 .f32) (hb : S_.BroadcastsInDim S4 (![] : Fin 0 → Fin S4.rank))
    (hr : S4.ReducesTo [0] S_) (hu : 0 < S_.numel)
    (h : Host.reduce IntOp.andi (cmpf .olt (Host.absf a) (broadcastInDim S4 ![] hb (constant S_ .f32 0x7F800000#32)))
          (constantI S_ 1 1#1) hr hu ix0 = 1#1) :
    ∀ i, ∃ r : ℝ, a i = (r : EReal) := by
  intro i
  have e := Host.reduce_andi_all _ _ hr hu ix0 h i
  rw [cmpf_apply, broadcastInDim_scalar_apply, constant_apply] at e
  exact real_of_abs_lt (a i) e

/-- Under the precondition the two per-chunk steps (the fifth and sixth arguments) hold real numbers: each
    entry's absolute value is below +∞. -/
theorem steps_real [Cert.Pre_finite_inputs.Facts]
    (a0 : FVec Ideal S8192x4096 .f32) (a1 : FVec Ideal S16384x4096 .f32) (a2 : FVec Ideal S16384 .f32)
    (a3 : FVec Ideal S4x4096 .f32) (a4 a5 : FVec Ideal S4 .f32)
    (h : Cert.Pre_finite_inputs.fn (F := Ideal) a0 a1 a2 a3 a4 a5 = fun _ => 1#1) :
    (∀ i, ∃ r : ℝ, a4 i = (r : EReal)) ∧ (∀ i, ∃ r : ℝ, a5 i = (r : EReal)) := by
  have h0 := congrFun h ix0
  dsimp only [Cert.Pre_finite_inputs.fn, Cert.Pre_finite_inputs.fn_part1] at h0
  obtain ⟨h1, h5⟩ := IntOp.andi_eq_one.1 h0
  obtain ⟨h2, h4⟩ := IntOp.andi_eq_one.1 h1
  exact ⟨all_real a4 _ _ _ h4, all_real a5 _ _ _ h5⟩

end Cert.Finite

end
-- ==== Proof.lean ====
/-
  The certificate: the quantized segment-linear kernel against its reference, over the extended reals.

  Both programs quantize the smoothed weight and the smoothed activations to integer levels in [-127, 127], chunk by
  chunk (`Cert.Spec`). The reference scales each level by its step and contracts over the 4096 input features; the
  kernel contracts the bare levels in eight column blocks and scales the finished sum by the product of the two steps.
  With finite steps (the precondition) the two are one function: a level is a real number, and a finite factor
  distributes over a finite sum of reals (`Cert.Spec.K_eq_R`).

  The three frames are the generated ones (the reference's from its generated run); nothing was rewritten by the
  ideal pass, so the idealization's conjunct is `True`.
-/
import proofs.«414508_j80762565034003_3_alg».proof.Defs
import proofs.«414508_j80762565034003_3_alg».proof.Proof.Gen.Kernel
import proofs.«414508_j80762565034003_3_alg».proof.Proof.Gen.Kernel.Skeleton
import proofs.«414508_j80762565034003_3_alg».proof.Proof.Gen.Kernel.Launch
import proofs.«414508_j80762565034003_3_alg».proof.Proof.Gen.Kernel.Points
import proofs.«414508_j80762565034003_3_alg».proof.Proof.Gen.Kernel.Frame
import proofs.«414508_j80762565034003_3_alg».proof.Proof.Gen.KernelIdeal
import proofs.«414508_j80762565034003_3_alg».proof.Proof.Gen.KernelIdeal.Skeleton
import proofs.«414508_j80762565034003_3_alg».proof.Proof.Gen.KernelIdeal.Launch
import proofs.«414508_j80762565034003_3_alg».proof.Proof.Gen.KernelIdeal.Points
import proofs.«414508_j80762565034003_3_alg».proof.Proof.Gen.KernelIdeal.Frame
import proofs.«414508_j80762565034003_3_alg».proof.Proof.Gen.ReferenceIdeal
import proofs.«414508_j80762565034003_3_alg».proof.Proof.Gen.ReferenceIdeal.Run
import proofs.«414508_j80762565034003_3_alg».proof.Proof.Gen.Pre_finite_inputs
import proofs.«414508_j80762565034003_3_alg».proof.Proof.KernelValue
import proofs.«414508_j80762565034003_3_alg».proof.Proof.RefValue
import proofs.«414508_j80762565034003_3_alg».proof.Proof.Algebra
import proofs.«414508_j80762565034003_3_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end, the kernel at `K` of the arguments and the
    reference at `R` of them; the precondition makes the two steps finite, and then `K = R`. -/
theorem algebraic : Cert.algebraic_KernelIdeal_ReferenceIdeal := by
  intro m ρ m' ρ' hpre hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  obtain ⟨h4, h5⟩ := Cert.Finite.steps_real _ _ _ _ _ _ (hpre c)
  exact (Cert.ReferenceIdeal.RefValue.result_eq _ _ _ _ _ _).trans (Cert.Spec.K_eq_R _ _ _ _ _ _ h4 h5).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
